-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S4096x4096 : Shape := ⟨2, ![4096, 4096]⟩
abbrev S16x4096 : Shape := ⟨2, ![16, 4096]⟩
abbrev S4096x16 : Shape := ⟨2, ![4096, 16]⟩
abbrev S131072 : Shape := ⟨1, ![131072]⟩
abbrev S4096 : Shape := ⟨1, ![4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S131072 .f32) (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S131072 .f32 := Host.absf main_arg4
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8x1024x4096 .f32) (main_arg1 : FVec F S4096x4096 .f32) (main_arg2 : FVec F S16x4096 .f32) (main_arg3 : FVec F S4096x16 .f32) (main_arg4 : FVec F S131072 .f32) (main_arg5 : FVec F S4096 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_v13 main_v16
-- ==== Kernel.lean ====
abbrev S8x1024x4096 : Shape := ⟨3, ![8, 1024, 4096]⟩
abbrev S4096x4096 : Shape := ⟨2, ![4096, 4096]⟩
abbrev S16x4096 : Shape := ⟨2, ![16, 4096]⟩
abbrev S4096x16 : Shape := ⟨2, ![4096, 16]⟩
abbrev S131072 : Shape := ⟨1, ![131072]⟩
abbrev S4096 : Shape := ⟨1, ![4096]⟩
abbrev S4096x32 : Shape := ⟨2, ![4096, 32]⟩
abbrev S128x4096 : Shape := ⟨2, ![128, 4096]⟩
abbrev S128x16 : Shape := ⟨2, ![128, 16]⟩
abbrev S128x32 : Shape := ⟨2, ![128, 32]⟩
abbrev S128x32x128 : Shape := ⟨3, ![128, 32, 128]⟩
abbrev S128x32x1 : Shape := ⟨3, ![128, 32, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 13
  | .vmem => 18
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S131072, .f32⟩
  | .hbm, ⟨5, _⟩ => ⟨S4096, .f32⟩
  | .hbm, ⟨6, _⟩ => ⟨S4096x32, .f32⟩
  | .hbm, ⟨7, _⟩ => ⟨S4096x4096, .bf16⟩
  | .hbm, ⟨8, _⟩ => ⟨S8192x4096, .f32⟩
  | .hbm, ⟨9, _⟩ => ⟨S8192x4096, .bf16⟩
  | .hbm, ⟨10, _⟩ => ⟨S1x4096, .f32⟩
  | .hbm, ⟨11, _⟩ => ⟨S8192x4096, .f32⟩
  | .hbm, ⟨12, _⟩ => ⟨S8x1024x4096, .f32⟩
  | .local _ .vmem, ⟨0, _⟩ => ⟨S128x4096, .f32⟩
  | .local _ .vmem, ⟨1, _⟩ => ⟨S128x4096, .f32⟩
  | .local _ .vmem, ⟨2, _⟩ => ⟨S16x4096, .f32⟩
  | .local _ .vmem, ⟨3, _⟩ => ⟨S128x16, .f32⟩
  | .local _ .vmem, ⟨4, _⟩ => ⟨S128x16, .f32⟩
  | .local _ .vmem, ⟨5, _⟩ => ⟨S128x32, .f32⟩
  | .local _ .vmem, ⟨6, _⟩ => ⟨S128x32, .f32⟩
  | .local _ .vmem, ⟨7, _⟩ => ⟨S128x4096, .bf16⟩
  | .local _ .vmem, ⟨8, _⟩ => ⟨S128x4096, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S131072_S4096x32 : S131072.ShapeCasts S4096x32
  inb_S128x16_S128x16_0_0 : ∀ a, (![0, 0] : Fin 2 → Nat) a + S128x16.size a ≤ S128x16.size a
  h_S128x16 : 0 < S128x16.numel
  inb_S16x4096_S16x4096_0_0 : ∀ a, (![0, 0] : Fin 2 → Nat) a + S16x4096.size a ≤ S16x4096.size a
  h_S16x4096 : 0 < S16x4096.numel
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  shapeCasts_S128x32x1_S128x32x1 : S128x32x1.ShapeCasts S128x32x1
  broadcasts_S128x32x1_S128x32x128 : S128x32x1.Broadcasts S128x32x128
  shapeCasts_S128x32x128_S128x4096 : S128x32x128.ShapeCasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S8x1024x4096_S8192x4096 : S8x1024x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S8x1024x4096 : S8192x4096.ShapeCasts S8x1024x4096
  dot_S128x16_S16x4096_S128x4096_1_0_0_1_n_n_wf : DotDims.WF S128x16 S16x4096 S128x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S4096x16.size a
  hwx0_2 : ∀ i : grid0.Coords, EltTy.bits .f32 = 32 ∨ (Rect.block (s := S4096x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S4096x32.size a
  hwx0_3 : ∀ i : grid0.Coords, EltTy.bits .f32 = 32 ∨ (Rect.block (s := S4096x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .bf16 = 32 ∨ (Rect.block (s := S4096x4096) S128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S4096x4096 : Shape := ⟨2, ![4096, 4096]⟩
abbrev S16x4096 : Shape := ⟨2, ![16, 4096]⟩
abbrev S4096x16 : Shape := ⟨2, ![4096, 16]⟩
abbrev S131072 : Shape := ⟨1, ![131072]⟩
abbrev S4096 : Shape := ⟨1, ![4096]⟩
abbrev S_ : Shape := ⟨0, ![]⟩
abbrev S131072x128 : Shape := ⟨2, ![131072, 128]⟩
abbrev S131072x1 : Shape := ⟨2, ![131072, 1]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S131072, .f32⟩
  | .hbm, ⟨5, _⟩ => ⟨S4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S131072x128, .f32⟩
  | .hbm, ⟨12, _⟩ => ⟨S131072x1, .f32⟩
  | .hbm, ⟨13, _⟩ => ⟨S_, .f32⟩
  | .hbm, ⟨14, _⟩ => ⟨S131072x1, .f32⟩
  | .hbm, ⟨15, _⟩ => ⟨S131072x1, .f32⟩
  | .hbm, ⟨16, _⟩ => ⟨S131072x128, .f32⟩
  | .hbm, ⟨17, _⟩ => ⟨S131072x128, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S4096x4096, .f32⟩
  | .hbm, ⟨30, _⟩ => ⟨S8x1024x4096, .f32⟩
  | .hbm, ⟨31, _⟩ => ⟨S1x1x4096, .f32⟩
  | .hbm, ⟨32, _⟩ => ⟨S8x1024x4096, .f32⟩
  | .hbm, ⟨33, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S131072x128 : S4096x4096.ShapeCasts S131072x128
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  dot_S4096x16_S16x4096_S4096x4096_1_0_0_1_n_n_wf : DotDims.WF S4096x16 S16x4096 S4096x4096 [1] [0] [0] [1] [] []
  dot_S8x1024x4096_S4096x4096_S8x1024x4096_2_1_01_0_n_n_wf : DotDims.WF S8x1024x4096 S4096x4096 S8x1024x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8x1024x4096_S4096x4096_S8x1024x4096_2_1_01_0_n_n : DotDims S8x1024x4096 S4096x4096 S8x1024x4096 where
  lhsContracting := [2]
  rhsContracting := [1]
  lhsNonContracting := [0, 1]
  rhsNonContracting := [0]
  lhsBatch := []
  rhsBatch := []
  wf := dot_S8x1024x4096_S4096x4096_S8x1024x4096_2_1_01_0_n_n_wf

class Facts : Prop extends Facts₀ where

variable [Facts]
-- ==== Proof.FrameK.R0.lean ====
/-
  Region 0 of the program: the weight-preparation kernel on its grid of 32 row tiles, at ANY contents `V`
  of the core's buffers when the region is entered. Each point reads a tile of 128 rows of the base
  weight, the whole rank-16 factor A, the tile's 128 rows of the factor B and its 128 × 32 scales, and
  writes the tile's 128 × 4096 quantised rows. Nothing is carried from point to point: what the output's
  staging buffer holds after the body is one function (`out0_4`) of the four input blocks.
-/
import proofs.«179960_j30837865185896_1_alg».proof.Proof.Gen.Kernel.Launch
import proofs.«179960_j30837865185896_1_alg».proof.Proof.Gen.Kernel.Skeleton
import proofs.«179960_j30837865185896_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not (an unfetched window's block index has not moved). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole of their buffer -/

abbrev rW : Rect S128x4096 := Rect.unit (s := S128x4096) ![0, 0] S128x4096.size inb_S128x4096_S128x4096_0_0
abbrev rA : Rect S16x4096 := Rect.unit (s := S16x4096) ![0, 0] S16x4096.size inb_S16x4096_S16x4096_0_0
abbrev rB : Rect S128x16 := Rect.unit (s := S128x16) ![0, 0] S128x16.size inb_S128x16_S128x16_0_0
abbrev rS : Rect S128x32 := Rect.unit (s := S128x32) ![0, 0] S128x32.size inb_S128x32_S128x32_0_0

/-! ## What the body leaves in the output window's buffer -/

/-- The output tile after the body, from the four input blocks (base-weight tile, factor A, factor-B tile,
    scales): the one store's payload laid over the whole tile. -/
def out0_4 (x0 : Vec F S128x4096 .f32) (x1 : Vec F S16x4096 .f32) (x2 : Vec F S128x16 .f32) (x3 : Vec F S128x32 .f32) : Vec F S128x4096 .bf16 :=
  View.canon [⟨rW, k0_pay1 (View.ld x2 rB) (View.ld x1 rA) (View.ld x0 rW) (View.ld x3 rS)⟩]

/-- The store covers the tile. -/
theorem cover0_4 (p0 : Vec F S128x4096 .bf16) (y : S128x4096.Idx) :
    ∃ pc ∈ ([⟨rW, p0⟩] : List (View.Piece (Elt F) S128x4096 .bf16)), y ∈ pc.1.set :=
  View.cover_of_tiled [⟨rW, p0⟩] S128x4096.size (by rfl) y

/-! ## The body's triple -/

set_option maxHeartbeats 1000000 in
/-- On whole staging memrefs, the inputs' at contents `x0 … x3` and the output's at anything, the body runs to
    the continuation with the inputs as they were and the output tile at `out0_4` of them. -/
theorem sound_kernel0 (c : Dev nD) (E : Set ℕ) (i : grid0.Coords)
    (arg1 : Memref sig .tc .vmem S128x4096 .f32) (harg1 : arg1.IsWhole) (arg2 : Memref sig .tc .vmem S16x4096 .f32) (harg2 : arg2.IsWhole)
    (arg3 : Memref sig .tc .vmem S128x16 .f32) (harg3 : arg3.IsWhole) (arg4 : Memref sig .tc .vmem S128x32 .f32) (harg4 : arg4.IsWhole)
    (arg5 : Memref sig .tc .vmem S128x4096 .bf16) (harg5 : arg5.IsWhole)
    (x0 : Vec F S128x4096 .f32) (x1 : Vec F S16x4096 .f32) (x2 : Vec F S128x16 .f32) (x3 : Vec F S128x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__quant_weight_kernel i arg1 harg1 arg2 harg2 arg3 harg3 arg4 harg4 arg5 harg5) K := by
  simp only [cc0__quant_weight_kernel_eq_skeleton]; unfold cc0__quant_weight_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Region 0's proof data on core `c`: the arrays as the region finds them; after the body at point `t` each
    input's buffer at its block and the output's at `out0_4` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.FrameK.R1Runs.lean ====
/-
  Region 1 of the program, the body alone: the matmul-and-bias kernel run on whole staging buffers in each of
  its three control cases. The grid is 8 × 4 × 4 with the contraction axis last; the scratch accumulator is
  reset where the contraction coordinate is 0, grows by one block product at every point, and is written out
  with the bias where the coordinate is 3. Each case's triple names what the scratch (and, in the last case,
  the output tile) holds afterwards as a term over the body's named payloads.
-/
import proofs.«179960_j30837865185896_1_alg».proof.Proof.Gen.Kernel.Launch
import proofs.«179960_j30837865185896_1_alg».proof.Proof.Gen.Kernel.Skeleton
import proofs.«179960_j30837865185896_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contraction coordinate is 0: the accumulator is reset at this point. -/
abbrev cond1_0 (i : grid1.Coords) : Prop := (Scalar.cmpi .ne (Scalar.extui (Scalar.cmpi .eq (BitVec.ofNat 32 (i 2).val) 0#32)) 0#32) = 1#1
/-- The contraction coordinate is 3: the accumulator plus the bias is stored into the output tile. -/
abbrev cond1_1 (i : grid1.Coords) : Prop := k1_cond2 i = 1#1

/-- Every access of the body takes its whole buffer: the offsets are zero. -/
theorem hz0 : (![0, 0] : Fin 2 → Nat) = fun _ => 0 := by funext a; fin_cases a <;> rfl

set_option maxHeartbeats 1000000 in
/-- RESET. Where the contraction coordinate is 0 the scratch, whatever it held, ends at the block product over a
    zero accumulator; the output tile is handed back untouched. -/
theorem run1_A (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 x1 : Vec F S1024x1024 .bf16) (x2 : Vec F S1x1024 .f32) (xi : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 (k1_pay1 (F := F)) x0 x1)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (fun y => ⟨_, List.mem_cons_self .., View.mem_set_unit_zero hz0 inb_S1024x1024_S1024x1024_0_0 y⟩)]
  rw [View.canon_cons_unit_zero hz0]
  simp only [View.readAt_eq_ld, View.ld_unit_zero (S := S1024x1024) hz0, View.readCov_unit_zero (S := S1024x1024) _ hz0]

set_option maxHeartbeats 1000000 in
/-- ACCUMULATE. At an inner point the scratch at `a` ends at `a` plus the block product; the output tile is handed
    back untouched. -/
theorem run1_B (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : ¬cond1_1 i)
    (x0 x1 : Vec F S1024x1024 .bf16) (x2 : Vec F S1x1024 .f32) (xi : Vec F S1024x1024 .f32) (a : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 a x0 x1)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try sl_unfold_words
  rw [View.read_writes_eq_canon _ _ _ (fun y => ⟨_, List.mem_cons_self .., View.mem_set_unit_zero hz0 inb_S1024x1024_S1024x1024_0_0 y⟩)]
  rw [View.canon_cons_unit_zero hz0]
  simp only [View.readAt_eq_ld, View.ld_unit_zero (S := S1024x1024) hz0, View.readCov_unit_zero (S := S1024x1024) _ hz0]

set_option maxHeartbeats 1000000 in
/-- FINISH. Where the contraction coordinate is 3 the scratch at `a` ends at `a` plus the block product, and the
    output tile, whatever it held, at that sum plus the bias row. -/
theorem run1_C (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 x1 : Vec F S1024x1024 .bf16) (x2 : Vec F S1x1024 .f32) (a : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 a x0 x1) x2) ∗ owns (c : Thread nD τ) arg7 fullShare (k1_pay2 a x0 x1)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hz0 inb_S1024x1024_S1024x1024_0_0 y⟩)]
    rw [View.canon_cons_unit_zero hz0]
    simp only [View.readAt_eq_ld, View.ld_unit_zero (S := S1024x1024) hz0, View.ld_unit_zero (S := S1x1024) hz0, View.readCov_unit_zero (S := S1024x1024) _ hz0]
  iexists _; isplitr
  swap; · iexact H4
  ipureintro
  try sl_unfold_words
  rw [View.read_writes_eq_canon _ _ _ (fun y => ⟨_, List.mem_cons_self .., View.mem_set_unit_zero hz0 inb_S1024x1024_S1024x1024_0_0 y⟩)]
  rw [View.canon_cons_unit_zero hz0]
  simp only [View.readAt_eq_ld, View.ld_unit_zero (S := S1024x1024) hz0, View.readCov_unit_zero (S := S1024x1024) _ hz0]

end Cert.Kernel.Frame

end
-- ==== Proof.FrameK.R1.lean ====
/-
  Region 1 of the program on its grid of 128 points (8 row tiles × 4 column tiles × 4 contraction blocks, the
  contraction coordinate fastest), at ANY contents `V` of the core's buffers when the region is entered.
  The scratch accumulator is carried from point to point: `accAt1` names what it holds after each point — the
  block product over zero where the contraction coordinate is 0, the previous contents plus the block product
  elsewhere. The output tile is stored only where the coordinate is 3 (the accumulator plus the bias row) and
  is idle, and not written back, at the other points. The region's invariant holds the scratch at `accAt1`.
-/
import proofs.«179960_j30837865185896_1_alg».proof.Proof.FrameK.R1Runs

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle -/

/-- The contraction coordinate of point `t` is `t mod 4`: the reset happens at the points ≡ 0, -/
theorem hcond1_0 : ∀ t : Fin cfg1.N, cond1_0 (grid1.coords t) ↔ t.val % 4 = 0 :=
  (by decide +kernel : ∀ t : Fin grid1.N, cond1_0 (grid1.coords t) ↔ t.val % 4 = 0)
/-- and the output store at the points ≡ 3. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the storing points the output window is idle and is not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at them it is live. -/
theorem liveAt1_3 : ∀ t : Fin cfg1.N, cond1_1 (grid1.coords t) → cfg1.idle 3 (grid1.coords t) = false := by decide +kernel

/-! ## The scratch accumulator, point by point -/

/-- The scratch operand: a whole scoped buffer of the kernel's own, passed beside the windows. -/
abbrev scM1 : Memref sig .tc .vmem S1024x1024 .f32 := Memref.whole cc1_scratch0

/-- What the scratch holds after the body at position `n`: the block product over a zero accumulator where the
    contraction coordinate is 0, what the point before left plus the block product elsewhere. -/
def accAt1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_reset (c : Dev nD) (t : Fin cfg1.N) (h0 : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h0

theorem accAt1_step (c : Dev nD) (t : Fin cfg1.N) (h0 : ¬t.val % 4 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-! ## The region's invariant -/

/-- The core's scoped buffers that are neither a staging buffer of this region nor its scratch: region 0's nine
    staging buffers, each whole at some contents. The body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant (the scoped rest and the generator register) with the scratch split out, one way -/
theorem PhiA1_split (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H1, H2, H3, H4, H5, H6, H7, H8, H9, HS⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  iexact Hg

/-- and back. -/
theorem PhiA1_join (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H1, H2, H3, H4, H5, H6, H7, H8, H9⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The region invariant before position `n`: before the first point the class's (the scratch at anything);
    afterwards the untouched scoped buffers, the scratch at what the point before left, and the generator register. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1 fullShare (accAt1 V c n hn) ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega)) ∗ (∃ r, prngReg c r)) := by
  cases n with
  | zero => exact absurd rfl hz
  | succ n => rfl

/-- Before any point the invariant yields the scratch at SOME contents beside the rest. -/
theorem PhiS1_any (c : Dev nD) (n : ℕ) (h : n ≤ cfg1.N) :
    PhiS1 V c n h ⊢ iprop(rest1 (F := F) c ∗ (∃ d, owns (c : Thread nD τ) scM1 fullShare d) ∗ (∃ r, prngReg c r)) := by
  cases n with
  | zero => exact PhiA1_split c
  | succ n =>
    rw [PhiS1_succ]
    iintro ⟨Hr, HS, Hg⟩
    isplitl [Hr]; · iexact Hr
    isplitl [HS]; · iexists _; iexact HS
    iexact Hg

/-! ## The pipeline's proof data -/

/-- Region 1's proof data on core `c`: the arrays as the region finds them; after the body at point `t` each
    input's buffer at its block and the output's at the accumulator plus the bias row (consulted only at the
    storing points: elsewhere the window is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the conditions say which
    case the point is in; the invariant hands the body the scratch at what the point before left (at anything
    before a reset) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  rw [PhiS1_castSucc V c t]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_reset V c t h0]
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    icases HΦ' with ⟨Hr, HS, Hg⟩
    iapply (run1_A c Set.univ (grid1.coords t) _ _ _ _ _ _ _ _ scM1 (Memref.isWhole_whole _) hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond1_0 (grid1.coords t) := fun h => h0 ((hcond1_0 t).mp h)
    rw [PhiS1_pos V c _ _ hz, accAt1_step V c t h0]
    by_cases h1 : t.val % 4 = 3
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, accAt1_step V c t h0]
      iintro ⟨⟨Hr, HS, Hg⟩, Ho, ⟨%d0, H0⟩, ⟨%d1, H1⟩, ⟨%d2, H2⟩, ⟨%d3, H3⟩⟩
      iapply (run1_C c Set.univ (grid1.coords t) _ _ _ _ _ _ _ _ scM1 (Memref.isWhole_whole _) hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨Hr, HS, Hg⟩, Ho, ⟨%d0, H0⟩, ⟨%d1, H1⟩, ⟨%d2, H2⟩, ⟨%d3, H3⟩⟩
      iapply (run1_B c Set.univ (grid1.coords t) _ _ _ _ _ _ _ _ scM1 (Memref.isWhole_whole _) hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_join c)

end Cert.Kernel.Frame

end
-- ==== Proof.FrameK.Run.lean ====
/-
  The whole run of the program: @main is a host reshape, region 0 (the weight preparation), three host
  operations (reshapes and a change of format), region 1 (the matmul with bias) and a last reshape. The buffer
  contents at each of the six boundaries are a fold from the launch memory (`W0 … W5`): a host stretch applies
  its operations, a region leaves its arrays at what its write-backs leave and every other buffer as entered.
  `run_main` says every weakly fair execution terminates with every unscoped buffer at `W5`; the frame claim
  is that fold read at the six argument arrays, which nothing writes.
-/
import proofs.«179960_j30837865185896_1_alg».proof.Proof.FrameK.R0
import proofs.«179960_j30837865185896_1_alg».proof.Proof.FrameK.R1
import proofs.«179960_j30837865185896_1_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch: what the program ends with. -/
abbrev W5 : Dev nD → Valuation τ sig (Elt F) := fun c => StableHlo.after hostOps2 (W4 m c)

/-! ## The arguments end as launched -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h

/-- A buffer no host operation writes and no region stages as an output reaches the end as launched: the three
    that bypass both regions, -/
theorem W5_main_arg0 (c : Dev nD) : W5 m c (Proc.devRef .tc main_arg0) = m ((c : Thread nD τ).loc main_arg0) :=
  (W5_keep m c main_arg0 (by decide)).trans <| (W4_of_ne m c main_arg0 (by decide)).trans <| (W3_keep m c main_arg0 (by decide)).trans <|
    (W2_of_ne m c main_arg0 (by decide)).trans <| (W1_keep m c main_arg0 (by decide)).trans rfl
theorem W5_main_arg4 (c : Dev nD) : W5 m c (Proc.devRef .tc main_arg4) = m ((c : Thread nD τ).loc main_arg4) :=
  (W5_keep m c main_arg4 (by decide)).trans <| (W4_of_ne m c main_arg4 (by decide)).trans <| (W3_keep m c main_arg4 (by decide)).trans <|
    (W2_of_ne m c main_arg4 (by decide)).trans <| (W1_keep m c main_arg4 (by decide)).trans rfl
theorem W5_main_arg5 (c : Dev nD) : W5 m c (Proc.devRef .tc main_arg5) = m ((c : Thread nD τ).loc main_arg5) :=
  (W5_keep m c main_arg5 (by decide)).trans <| (W4_of_ne m c main_arg5 (by decide)).trans <| (W3_keep m c main_arg5 (by decide)).trans <|
    (W2_of_ne m c main_arg5 (by decide)).trans <| (W1_keep m c main_arg5 (by decide)).trans rfl
/-- and the three region 0 reads through input windows (an input array is never written). -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W5_main_arg1 (c : Dev nD) : W5 m c (Proc.devRef .tc main_arg1) = m ((c : Thread nD τ).loc main_arg1) :=
  (W5_keep m c main_arg1 (by decide)).trans <| (W4_of_ne m c main_arg1 (by decide)).trans <| (W3_keep m c main_arg1 (by decide)).trans <|
    (W2_in m c 0 rfl).trans <| (W1_keep m c main_arg1 (by decide)).trans rfl
theorem W5_main_arg2 (c : Dev nD) : W5 m c (Proc.devRef .tc main_arg2) = m ((c : Thread nD τ).loc main_arg2) :=
  (W5_keep m c main_arg2 (by decide)).trans <| (W4_of_ne m c main_arg2 (by decide)).trans <| (W3_keep m c main_arg2 (by decide)).trans <|
    (W2_in m c 1 rfl).trans <| (W1_keep m c main_arg2 (by decide)).trans rfl
theorem W5_main_arg3 (c : Dev nD) : W5 m c (Proc.devRef .tc main_arg3) = m ((c : Thread nD τ).loc main_arg3) :=
  (W5_keep m c main_arg3 (by decide)).trans <| (W4_of_ne m c main_arg3 (by decide)).trans <| (W3_keep m c main_arg3 (by decide)).trans <|
    (W2_in m c 2 rfl).trans <| (W1_keep m c main_arg3 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W5`, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its invariant takes the
    class's at the first point and gives it back after the last (the scratch's contents named in between). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (show Pipeline.ΦA spec1 c ⊢ (pdats m 1 c).Φ 0 from hin1 (V3 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (show (pdats m 1 c).Φ (Fin.last _) ⊢ Pipeline.ΦA spec1 c from hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has every unscoped buffer at the last
    boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_main m ρ)

end Cert.Kernel.Frame

end
-- ==== Proof.FrameKI.R0.lean ====
/-
  Region 0 of the program: the weight-preparation kernel on its grid of 32 row tiles, at ANY contents `V`
  of the core's buffers when the region is entered. Each point reads a tile of 128 rows of the base
  weight, the whole rank-16 factor A, the tile's 128 rows of the factor B and its 128 × 32 scales, and
  writes the tile's 128 × 4096 quantised rows. Nothing is carried from point to point: what the output's
  staging buffer holds after the body is one function (`out0_4`) of the four input blocks.
-/
import proofs.«179960_j30837865185896_1_alg».proof.Proof.Gen.KernelIdeal.Launch
import proofs.«179960_j30837865185896_1_alg».proof.Proof.Gen.KernelIdeal.Skeleton
import proofs.«179960_j30837865185896_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not (an unfetched window's block index has not moved). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole of their buffer -/

abbrev rW : Rect S128x4096 := Rect.unit (s := S128x4096) ![0, 0] S128x4096.size inb_S128x4096_S128x4096_0_0
abbrev rA : Rect S16x4096 := Rect.unit (s := S16x4096) ![0, 0] S16x4096.size inb_S16x4096_S16x4096_0_0
abbrev rB : Rect S128x16 := Rect.unit (s := S128x16) ![0, 0] S128x16.size inb_S128x16_S128x16_0_0
abbrev rS : Rect S128x32 := Rect.unit (s := S128x32) ![0, 0] S128x32.size inb_S128x32_S128x32_0_0

/-! ## What the body leaves in the output window's buffer -/

/-- The output tile after the body, from the four input blocks (base-weight tile, factor A, factor-B tile,
    scales): the one store's payload laid over the whole tile. -/
def out0_4 (x0 : Vec F S128x4096 .f32) (x1 : Vec F S16x4096 .f32) (x2 : Vec F S128x16 .f32) (x3 : Vec F S128x32 .f32) : Vec F S128x4096 .bf16 :=
  View.canon [⟨rW, k0_pay1 (View.ld x2 rB) (View.ld x1 rA) (View.ld x0 rW) (View.ld x3 rS)⟩]

/-- The store covers the tile. -/
theorem cover0_4 (p0 : Vec F S128x4096 .bf16) (y : S128x4096.Idx) :
    ∃ pc ∈ ([⟨rW, p0⟩] : List (View.Piece (Elt F) S128x4096 .bf16)), y ∈ pc.1.set :=
  View.cover_of_tiled [⟨rW, p0⟩] S128x4096.size (by rfl) y

/-! ## The body's triple -/

set_option maxHeartbeats 1000000 in
/-- On whole staging memrefs, the inputs' at contents `x0 … x3` and the output's at anything, the body runs to
    the continuation with the inputs as they were and the output tile at `out0_4` of them. -/
theorem sound_kernel0 (c : Dev nD) (E : Set ℕ) (i : grid0.Coords)
    (arg1 : Memref sig .tc .vmem S128x4096 .f32) (harg1 : arg1.IsWhole) (arg2 : Memref sig .tc .vmem S16x4096 .f32) (harg2 : arg2.IsWhole)
    (arg3 : Memref sig .tc .vmem S128x16 .f32) (harg3 : arg3.IsWhole) (arg4 : Memref sig .tc .vmem S128x32 .f32) (harg4 : arg4.IsWhole)
    (arg5 : Memref sig .tc .vmem S128x4096 .bf16) (harg5 : arg5.IsWhole)
    (x0 : Vec F S128x4096 .f32) (x1 : Vec F S16x4096 .f32) (x2 : Vec F S128x16 .f32) (x3 : Vec F S128x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__quant_weight_kernel i arg1 harg1 arg2 harg2 arg3 harg3 arg4 harg4 arg5 harg5) K := by
  simp only [cc0__quant_weight_kernel_eq_skeleton]; unfold cc0__quant_weight_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Region 0's proof data on core `c`: the arrays as the region finds them; after the body at point `t` each
    input's buffer at its block and the output's at `out0_4` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.FrameKI.R1Runs.lean ====
/-
  Region 1 of the program, the body alone: the matmul-and-bias kernel run on whole staging buffers in each of
  its three control cases. The grid is 8 × 4 × 4 with the contraction axis last; the scratch accumulator is
  reset where the contraction coordinate is 0, grows by one block product at every point, and is written out
  with the bias where the coordinate is 3. Each case's triple names what the scratch (and, in the last case,
  the output tile) holds afterwards as a term over the body's named payloads.
-/
import proofs.«179960_j30837865185896_1_alg».proof.Proof.Gen.KernelIdeal.Launch
import proofs.«179960_j30837865185896_1_alg».proof.Proof.Gen.KernelIdeal.Skeleton
import proofs.«179960_j30837865185896_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contraction coordinate is 0: the accumulator is reset at this point. -/
abbrev cond1_0 (i : grid1.Coords) : Prop := (Scalar.cmpi .ne (Scalar.extui (Scalar.cmpi .eq (BitVec.ofNat 32 (i 2).val) 0#32)) 0#32) = 1#1
/-- The contraction coordinate is 3: the accumulator plus the bias is stored into the output tile. -/
abbrev cond1_1 (i : grid1.Coords) : Prop := k1_cond2 i = 1#1

/-- Every access of the body takes its whole buffer: the offsets are zero. -/
theorem hz0 : (![0, 0] : Fin 2 → Nat) = fun _ => 0 := by funext a; fin_cases a <;> rfl

set_option maxHeartbeats 1000000 in
/-- RESET. Where the contraction coordinate is 0 the scratch, whatever it held, ends at the block product over a
    zero accumulator; the output tile is handed back untouched. -/
theorem run1_A (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 x1 : Vec F S1024x1024 .bf16) (x2 : Vec F S1x1024 .f32) (xi : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 (k1_pay1 (F := F)) x0 x1)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (fun y => ⟨_, List.mem_cons_self .., View.mem_set_unit_zero hz0 inb_S1024x1024_S1024x1024_0_0 y⟩)]
  rw [View.canon_cons_unit_zero hz0]
  simp only [View.readAt_eq_ld, View.ld_unit_zero (S := S1024x1024) hz0, View.readCov_unit_zero (S := S1024x1024) _ hz0]

set_option maxHeartbeats 1000000 in
/-- ACCUMULATE. At an inner point the scratch at `a` ends at `a` plus the block product; the output tile is handed
    back untouched. -/
theorem run1_B (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : ¬cond1_1 i)
    (x0 x1 : Vec F S1024x1024 .bf16) (x2 : Vec F S1x1024 .f32) (xi : Vec F S1024x1024 .f32) (a : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 a x0 x1)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try sl_unfold_words
  rw [View.read_writes_eq_canon _ _ _ (fun y => ⟨_, List.mem_cons_self .., View.mem_set_unit_zero hz0 inb_S1024x1024_S1024x1024_0_0 y⟩)]
  rw [View.canon_cons_unit_zero hz0]
  simp only [View.readAt_eq_ld, View.ld_unit_zero (S := S1024x1024) hz0, View.readCov_unit_zero (S := S1024x1024) _ hz0]

set_option maxHeartbeats 1000000 in
/-- FINISH. Where the contraction coordinate is 3 the scratch at `a` ends at `a` plus the block product, and the
    output tile, whatever it held, at that sum plus the bias row. -/
theorem run1_C (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 x1 : Vec F S1024x1024 .bf16) (x2 : Vec F S1x1024 .f32) (a : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 a x0 x1) x2) ∗ owns (c : Thread nD τ) arg7 fullShare (k1_pay2 a x0 x1)) -∗ K ⟨⟩))
      ⊢ wp frame (wpE (defs₀ (F := F)) Variants.none c none) E (cc1__matmul_bias_kernel i arg3 harg3 arg4 harg4 arg5 harg5 arg6 harg6 arg7 harg7) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hz0 inb_S1024x1024_S1024x1024_0_0 y⟩)]
    rw [View.canon_cons_unit_zero hz0]
    simp only [View.readAt_eq_ld, View.ld_unit_zero (S := S1024x1024) hz0, View.ld_unit_zero (S := S1x1024) hz0, View.readCov_unit_zero (S := S1024x1024) _ hz0]
  iexists _; isplitr
  swap; · iexact H4
  ipureintro
  try sl_unfold_words
  rw [View.read_writes_eq_canon _ _ _ (fun y => ⟨_, List.mem_cons_self .., View.mem_set_unit_zero hz0 inb_S1024x1024_S1024x1024_0_0 y⟩)]
  rw [View.canon_cons_unit_zero hz0]
  simp only [View.readAt_eq_ld, View.ld_unit_zero (S := S1024x1024) hz0, View.readCov_unit_zero (S := S1024x1024) _ hz0]

end Cert.KernelIdeal.Frame

end
-- ==== Proof.FrameKI.R1.lean ====
/-
  Region 1 of the program on its grid of 128 points (8 row tiles × 4 column tiles × 4 contraction blocks, the
  contraction coordinate fastest), at ANY contents `V` of the core's buffers when the region is entered.
  The scratch accumulator is carried from point to point: `accAt1` names what it holds after each point — the
  block product over zero where the contraction coordinate is 0, the previous contents plus the block product
  elsewhere. The output tile is stored only where the coordinate is 3 (the accumulator plus the bias row) and
  is idle, and not written back, at the other points. The region's invariant holds the scratch at `accAt1`.
-/
import proofs.«179960_j30837865185896_1_alg».proof.Proof.FrameKI.R1Runs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle -/

/-- The contraction coordinate of point `t` is `t mod 4`: the reset happens at the points ≡ 0, -/
theorem hcond1_0 : ∀ t : Fin cfg1.N, cond1_0 (grid1.coords t) ↔ t.val % 4 = 0 :=
  (by decide +kernel : ∀ t : Fin grid1.N, cond1_0 (grid1.coords t) ↔ t.val % 4 = 0)
/-- and the output store at the points ≡ 3. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the storing points the output window is idle and is not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at them it is live. -/
theorem liveAt1_3 : ∀ t : Fin cfg1.N, cond1_1 (grid1.coords t) → cfg1.idle 3 (grid1.coords t) = false := by decide +kernel

/-! ## The scratch accumulator, point by point -/

/-- The scratch operand: a whole scoped buffer of the kernel's own, passed beside the windows. -/
abbrev scM1 : Memref sig .tc .vmem S1024x1024 .f32 := Memref.whole cc1_scratch0

/-- What the scratch holds after the body at position `n`: the block product over a zero accumulator where the
    contraction coordinate is 0, what the point before left plus the block product elsewhere. -/
def accAt1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_reset (c : Dev nD) (t : Fin cfg1.N) (h0 : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h0

theorem accAt1_step (c : Dev nD) (t : Fin cfg1.N) (h0 : ¬t.val % 4 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-! ## The region's invariant -/

/-- The core's scoped buffers that are neither a staging buffer of this region nor its scratch: region 0's nine
    staging buffers, each whole at some contents. The body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The class invariant (the scoped rest and the generator register) with the scratch split out, one way -/
theorem PhiA1_split (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H1, H2, H3, H4, H5, H6, H7, H8, H9, HS⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  iexact Hg

/-- and back. -/
theorem PhiA1_join (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H1, H2, H3, H4, H5, H6, H7, H8, H9⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The region invariant before position `n`: before the first point the class's (the scratch at anything);
    afterwards the untouched scoped buffers, the scratch at what the point before left, and the generator register. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1 fullShare (accAt1 V c n hn) ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega)) ∗ (∃ r, prngReg c r)) := by
  cases n with
  | zero => exact absurd rfl hz
  | succ n => rfl

/-- Before any point the invariant yields the scratch at SOME contents beside the rest. -/
theorem PhiS1_any (c : Dev nD) (n : ℕ) (h : n ≤ cfg1.N) :
    PhiS1 V c n h ⊢ iprop(rest1 (F := F) c ∗ (∃ d, owns (c : Thread nD τ) scM1 fullShare d) ∗ (∃ r, prngReg c r)) := by
  cases n with
  | zero => exact PhiA1_split c
  | succ n =>
    rw [PhiS1_succ]
    iintro ⟨Hr, HS, Hg⟩
    isplitl [Hr]; · iexact Hr
    isplitl [HS]; · iexists _; iexact HS
    iexact Hg

/-! ## The pipeline's proof data -/

/-- Region 1's proof data on core `c`: the arrays as the region finds them; after the body at point `t` each
    input's buffer at its block and the output's at the accumulator plus the bias row (consulted only at the
    storing points: elsewhere the window is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the conditions say which
    case the point is in; the invariant hands the body the scratch at what the point before left (at anything
    before a reset) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  rw [PhiS1_castSucc V c t]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_reset V c t h0]
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    icases HΦ' with ⟨Hr, HS, Hg⟩
    iapply (run1_A c Set.univ (grid1.coords t) _ _ _ _ _ _ _ _ scM1 (Memref.isWhole_whole _) hc0 hc1 (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond1_0 (grid1.coords t) := fun h => h0 ((hcond1_0 t).mp h)
    rw [PhiS1_pos V c _ _ hz, accAt1_step V c t h0]
    by_cases h1 : t.val % 4 = 3
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, accAt1_step V c t h0]
      iintro ⟨⟨Hr, HS, Hg⟩, Ho, ⟨%d0, H0⟩, ⟨%d1, H1⟩, ⟨%d2, H2⟩, ⟨%d3, H3⟩⟩
      iapply (run1_C c Set.univ (grid1.coords t) _ _ _ _ _ _ _ _ scM1 (Memref.isWhole_whole _) hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨Hr, HS, Hg⟩, Ho, ⟨%d0, H0⟩, ⟨%d1, H1⟩, ⟨%d2, H2⟩, ⟨%d3, H3⟩⟩
      iapply (run1_B c Set.univ (grid1.coords t) _ _ _ _ _ _ _ _ scM1 (Memref.isWhole_whole _) hc0 hc1 (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_join c)

end Cert.KernelIdeal.Frame

end
-- ==== Proof.FrameKI.Run.lean ====
/-
  The whole run of the program: @main is a host reshape, region 0 (the weight preparation), three host
  operations (reshapes and a change of format), region 1 (the matmul with bias) and a last reshape. The buffer
  contents at each of the six boundaries are a fold from the launch memory (`W0 … W5`): a host stretch applies
  its operations, a region leaves its arrays at what its write-backs leave and every other buffer as entered.
  `run_main` says every weakly fair execution terminates with every unscoped buffer at `W5`; the frame claim
  is that fold read at the six argument arrays, which nothing writes.
-/
import proofs.«179960_j30837865185896_1_alg».proof.Proof.FrameKI.R0
import proofs.«179960_j30837865185896_1_alg».proof.Proof.FrameKI.R1
import proofs.«179960_j30837865185896_1_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch: what the program ends with. -/
abbrev W5 : Dev nD → Valuation τ sig (Elt F) := fun c => StableHlo.after hostOps2 (W4 m c)

/-! ## The arguments end as launched -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h

/-- A buffer no host operation writes and no region stages as an output reaches the end as launched: the three
    that bypass both regions, -/
theorem W5_main_arg0 (c : Dev nD) : W5 m c (Proc.devRef .tc main_arg0) = m ((c : Thread nD τ).loc main_arg0) :=
  (W5_keep m c main_arg0 (by decide)).trans <| (W4_of_ne m c main_arg0 (by decide)).trans <| (W3_keep m c main_arg0 (by decide)).trans <|
    (W2_of_ne m c main_arg0 (by decide)).trans <| (W1_keep m c main_arg0 (by decide)).trans rfl
theorem W5_main_arg4 (c : Dev nD) : W5 m c (Proc.devRef .tc main_arg4) = m ((c : Thread nD τ).loc main_arg4) :=
  (W5_keep m c main_arg4 (by decide)).trans <| (W4_of_ne m c main_arg4 (by decide)).trans <| (W3_keep m c main_arg4 (by decide)).trans <|
    (W2_of_ne m c main_arg4 (by decide)).trans <| (W1_keep m c main_arg4 (by decide)).trans rfl
theorem W5_main_arg5 (c : Dev nD) : W5 m c (Proc.devRef .tc main_arg5) = m ((c : Thread nD τ).loc main_arg5) :=
  (W5_keep m c main_arg5 (by decide)).trans <| (W4_of_ne m c main_arg5 (by decide)).trans <| (W3_keep m c main_arg5 (by decide)).trans <|
    (W2_of_ne m c main_arg5 (by decide)).trans <| (W1_keep m c main_arg5 (by decide)).trans rfl
/-- and the three region 0 reads through input windows (an input array is never written). -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W5_main_arg1 (c : Dev nD) : W5 m c (Proc.devRef .tc main_arg1) = m ((c : Thread nD τ).loc main_arg1) :=
  (W5_keep m c main_arg1 (by decide)).trans <| (W4_of_ne m c main_arg1 (by decide)).trans <| (W3_keep m c main_arg1 (by decide)).trans <|
    (W2_in m c 0 rfl).trans <| (W1_keep m c main_arg1 (by decide)).trans rfl
theorem W5_main_arg2 (c : Dev nD) : W5 m c (Proc.devRef .tc main_arg2) = m ((c : Thread nD τ).loc main_arg2) :=
  (W5_keep m c main_arg2 (by decide)).trans <| (W4_of_ne m c main_arg2 (by decide)).trans <| (W3_keep m c main_arg2 (by decide)).trans <|
    (W2_in m c 1 rfl).trans <| (W1_keep m c main_arg2 (by decide)).trans rfl
theorem W5_main_arg3 (c : Dev nD) : W5 m c (Proc.devRef .tc main_arg3) = m ((c : Thread nD τ).loc main_arg3) :=
  (W5_keep m c main_arg3 (by decide)).trans <| (W4_of_ne m c main_arg3 (by decide)).trans <| (W3_keep m c main_arg3 (by decide)).trans <|
    (W2_in m c 2 rfl).trans <| (W1_keep m c main_arg3 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W5`, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its invariant takes the
    class's at the first point and gives it back after the last (the scratch's contents named in between). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (show Pipeline.ΦA spec1 c ⊢ (pdats m 1 c).Φ 0 from hin1 (V3 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (show (pdats m 1 c).Φ (Fin.last _) ⊢ Pipeline.ΦA spec1 c from hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has every unscoped buffer at the last
    boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_main m ρ)

end Cert.KernelIdeal.Frame

end
-- ==== Proof.Spec.lean ====
/-
  The mathematics both programs compute, over the extended reals, index by index.

  A weight W[o, i] = w0[o, i] + 1 · Σ_r B[o, r] · A[r, i] (the rank-16 update merged into the base weight) is
  fake-quantised in groups of 128 consecutive entries of a row: with s the scale of the entry's group (group
  number o · 32 + i / 128 of the flat scale array), it becomes round-half-even(min(7, max(−8, W / (s + ε)))) · s.
  The result is then applied as a linear layer: out[b, t, o] = Σ_i x[b, t, i] · Wq[o, i] + bias[o].

  The kernel accumulates the last sum in four blocks of 1024 terms over a zero accumulator; over the extended
  reals addition is commutative and associative with neutral element 0 (the infinities included), so the four
  partial sums added in order are the whole sum (`sum_blocks4`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The ε both programs add to a scale before dividing: the same f32 word on both sides, never evaluated. -/
def eps : EReal := Ideal.ofBits .f32 0x3089705F#32
/-- The factor 1.0 both programs multiply the low-rank product by: the same word on both sides. -/
def one : EReal := Ideal.ofBits .f32 0x3F800000#32
/-- The clipping bounds of the 4-bit signed range. -/
def lo : EReal := ((-8 : ℝ) : EReal)
def hi : EReal := ((7 : ℝ) : EReal)

/-- The kernel spells the bounds as f32 words, -/
theorem ofBits_lo : Ideal.ofBits .f32 0xC1000000#32 = lo := by
  unfold lo; simp [Ideal.ofBits, Ideal.ieee, -EReal.coe_mul]; norm_num
theorem ofBits_hi : Ideal.ofBits .f32 0x40E00000#32 = hi := by
  unfold hi; simp [Ideal.ofBits, Ideal.ieee, -EReal.coe_mul]; norm_num
/-- the reference as 32-bit integers converted exactly. -/
theorem toInt_lo : (((4294967288#32 : BitVec 32).toInt : ℝ) : EReal) = lo := by
  have h : (4294967288#32 : BitVec 32).toInt = -8 := by decide
  rw [h]; unfold lo; norm_num
theorem toInt_hi : (((7#32 : BitVec 32).toInt : ℝ) : EReal) = hi := by
  have h : (7#32 : BitVec 32).toInt = 7 := by decide
  rw [h]; unfold hi; norm_num

/-- Fake-quantisation of one weight `w` at scale `s`. -/
def quant (w s : EReal) : EReal :=
  Ideal.liftRound Ideal.roundHalfEven (min hi (max lo (Ideal.div w (s + eps)))) * s

/-- The merged weight at row `o`, column `i`. -/
def wcomb (w0 : (⟨2, ![4096, 4096]⟩ : Shape).Idx → EReal) (la : (⟨2, ![16, 4096]⟩ : Shape).Idx → EReal)
    (lb : (⟨2, ![4096, 16]⟩ : Shape).Idx → EReal) (o i : Fin 4096) : EReal :=
  w0 (ix2 o i) + one * ∑ r : Fin 16, lb (ix2 o r) * la (ix2 r i)

/-- The scale group of entry (o, i) in the flat scale array: rows have 32 groups of 128 entries. -/
def grp (o i : Fin 4096) : Fin 131072 := ⟨o.val * 32 + i.val / 128, by have := o.isLt; have := i.isLt; omega⟩

/-- The quantised weight. -/
def wq (w0 : (⟨2, ![4096, 4096]⟩ : Shape).Idx → EReal) (la : (⟨2, ![16, 4096]⟩ : Shape).Idx → EReal)
    (lb : (⟨2, ![4096, 16]⟩ : Shape).Idx → EReal) (q : (⟨1, ![131072]⟩ : Shape).Idx → EReal) (o i : Fin 4096) : EReal :=
  quant (wcomb w0 la lb o i) (q (ix1 (grp o i)))

/-- The linear layer's output. -/
def out (x : (⟨3, ![8, 1024, 4096]⟩ : Shape).Idx → EReal) (w : Fin 4096 → Fin 4096 → EReal)
    (bias : (⟨1, ![4096]⟩ : Shape).Idx → EReal) (b : Fin 8) (t : Fin 1024) (o : Fin 4096) : EReal :=
  (∑ i : Fin 4096, x (ix3 b t i) * w o i) + bias (ix1 o)

/-- Four consecutive blocks of 1024 terms, added in order onto zero, are the sum of all 4096 terms: addition on
    the extended reals is a commutative monoid. -/
theorem sum_blocks4 (f : Fin 4096 → EReal) :
    (((0 + ∑ k : Fin 1024, f ⟨0 + k.val, by have := k.isLt; omega⟩) + ∑ k : Fin 1024, f ⟨1024 + k.val, by have := k.isLt; omega⟩)
        + ∑ k : Fin 1024, f ⟨2048 + k.val, by have := k.isLt; omega⟩) + ∑ k : Fin 1024, f ⟨3072 + k.val, by have := k.isLt; omega⟩
      = ∑ i : Fin 4096, f i := by
  let g : ℕ → EReal := fun i => if h : i < 4096 then f ⟨i, h⟩ else 0
  have hg : ∀ (i : ℕ) (h : i < 4096), g i = f ⟨i, h⟩ := fun i h => dif_pos h
  have e0 : ∑ k : Fin 1024, f ⟨0 + k.val, by have := k.isLt; omega⟩ = ∑ k ∈ Finset.range 1024, g k := by
    rw [← Fin.sum_univ_eq_sum_range (fun k => g k) 1024]
    exact Finset.sum_congr rfl fun k _ => by rw [hg k.val (by have := k.isLt; omega)]; exact congrArg f (Fin.ext (Nat.zero_add _))
  have e1 : ∑ k : Fin 1024, f ⟨1024 + k.val, by have := k.isLt; omega⟩ = ∑ k ∈ Finset.range 1024, g (1024 + k) := by
    rw [← Fin.sum_univ_eq_sum_range (fun k => g (1024 + k)) 1024]
    exact Finset.sum_congr rfl fun k _ => (hg _ _).symm
  have e2 : ∑ k : Fin 1024, f ⟨2048 + k.val, by have := k.isLt; omega⟩ = ∑ k ∈ Finset.range 1024, g (2048 + k) := by
    rw [← Fin.sum_univ_eq_sum_range (fun k => g (2048 + k)) 1024]
    exact Finset.sum_congr rfl fun k _ => (hg _ _).symm
  have e3 : ∑ k : Fin 1024, f ⟨3072 + k.val, by have := k.isLt; omega⟩ = ∑ k ∈ Finset.range 1024, g (3072 + k) := by
    rw [← Fin.sum_univ_eq_sum_range (fun k => g (3072 + k)) 1024]
    exact Finset.sum_congr rfl fun k _ => (hg _ _).symm
  have eT : ∑ i : Fin 4096, f i = ∑ i ∈ Finset.range 4096, g i := by
    rw [← Fin.sum_univ_eq_sum_range (fun i => g i) 4096]
    exact Finset.sum_congr rfl fun i _ => (hg _ _).symm
  rw [e0, e1, e2, e3, eT, zero_add,
    show (4096 : ℕ) = 3072 + 1024 from rfl, Finset.sum_range_add,
    show (3072 : ℕ) = 2048 + 1024 from rfl, Finset.sum_range_add,
    show (2048 : ℕ) = 1024 + 1024 from rfl, Finset.sum_range_add]

end Cert.Spec

end
-- ==== Proof.R0Value.lean ====
/-
  What region 0 leaves in the quantised-weight array, at the ideal values: entry (o, i) is the merged weight
  w0[o, i] + 1 · Σ_r B[o, r] · A[r, i] fake-quantised at the scale of its group (row o, group i / 128 of the 4096 × 32
  scale array). Point t of the grid writes rows 128 t … 128 t + 127: its payload, read at row p and column i of the tile,
  is that entry for o = 128 t + p, and the 32 tiles cover the array.
-/
import proofs.«179960_j30837865185896_1_alg».proof.Proof.FrameKI.R0
import proofs.«179960_j30837865185896_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Value0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

/-! ## The layout operations of the body, read at an index -/

/-- A tile seen as 128 × (32 · 128), at row `p` and column `i`, is the grouped view at group i / 128, position i mod 128; -/
theorem cast_rows {α : Type} (v : S128x32x128.Idx → α) (p : Fin 128) (i : Fin 4096) :
    shapeCast S128x4096 v shapeCasts_S128x32x128_S128x4096 (ix2 p i)
      = v (ix3 p ⟨i.val / 128, by have := i.isLt; omega⟩ ⟨i.val % 128, Nat.mod_lt _ (by decide)⟩) :=
  shapeCast_apply v shapeCasts_S128x32x128_S128x4096 (ix2 p i) _ (by
    rw [Shape.rowMajor_val_three, Shape.rowMajor_val_two]
    show (p.val * 32 + i.val / 128) * 128 + i.val % 128 = p.val * 4096 + i.val
    omega)

/-- and the grouped view at (p, g, j) is the tile at column g · 128 + j. -/
theorem cast_groups {α : Type} (v : S128x4096.Idx → α) (p : Fin 128) (g : Fin 32) (j : Fin 128) :
    shapeCast S128x32x128 v shapeCasts_S128x4096_S128x32x128 (ix3 p g j)
      = v (ix2 p ⟨g.val * 128 + j.val, by have := g.isLt; have := j.isLt; omega⟩) :=
  shapeCast_apply v shapeCasts_S128x4096_S128x32x128 (ix3 p g j) _ (by
    rw [Shape.rowMajor_val_two, Shape.rowMajor_val_three]
    show p.val * 4096 + (g.val * 128 + j.val) = (p.val * 32 + g.val) * 128 + j.val
    omega)

/-- The scales, given a trailing unit axis and broadcast along the group, read at (p, g, j) are the scale of (p, g). -/
theorem scale_bcast {α : Type} (v8 : S128x32.Idx → α) (p : Fin 128) (g : Fin 32) (j : Fin 128) :
    broadcastTo S128x32x128 (shapeCast S128x32x1 (shapeCast S128x32x1 (shapeCast S128x32 v8 shapeCasts_S128x32_S128x32) shapeCasts_S128x32_S128x32x1) shapeCasts_S128x32x1_S128x32x1)
        broadcasts_S128x32x1_S128x32x128 (ix3 p g j) = v8 (ix2 p g) := by
  rw [broadcastTo_apply _ broadcasts_S128x32x1_S128x32x128 (ix3 p g j) (ix3 p g (0 : Fin 1)) (fun a => by
    match a with
    | ⟨0, _⟩ => show p.val = if (128 : Nat) = 1 then 0 else p.val; rw [if_neg (by decide)]
    | ⟨1, _⟩ => show g.val = if (32 : Nat) = 1 then 0 else g.val; rw [if_neg (by decide)]
    | ⟨2, _⟩ => show 0 = if (1 : Nat) = 1 then 0 else j.val; rw [if_pos rfl])]
  rw [shapeCast_self, shapeCast_self]
  exact shapeCast_apply v8 shapeCasts_S128x32_S128x32x1 (ix3 p g (0 : Fin 1)) (ix2 p g) (by
    rw [Shape.rowMajor_val_two, Shape.rowMajor_val_three]
    show p.val * 32 + g.val = (p.val * 32 + g.val) * 1 + 0
    omega)

/-! ## The low-rank product, read at an index -/

theorem lhs_lora_0 (i : S128x4096.Idx) (q : dot_S128x16_S16x4096_S128x4096_1_0_0_1_n_n.contr.Idx) :
    (dot_S128x16_S16x4096_S128x4096_1_0_0_1_n_n.lhsIdx i q 0).val = (i 0).val := by
  unfold DotDims.lhsIdx
  rw [dif_neg (show ¬(0 : Fin S128x16.rank) ∈ dot_S128x16_S16x4096_S128x4096_1_0_0_1_n_n.lhsBatch by decide), dif_pos (show (0 : Fin S128x16.rank) ∈ dot_S128x16_S16x4096_S128x4096_1_0_0_1_n_n.lhsNonContracting by decide)]
  rfl
theorem lhs_lora_1 (i : S128x4096.Idx) (q : dot_S128x16_S16x4096_S128x4096_1_0_0_1_n_n.contr.Idx) :
    (dot_S128x16_S16x4096_S128x4096_1_0_0_1_n_n.lhsIdx i q 1).val = (q ⟨0, by decide⟩).val :=
  dot_S128x16_S16x4096_S128x4096_1_0_0_1_n_n.lhsIdx_val_of_single rfl i q
theorem rhs_lora_0 (i : S128x4096.Idx) (q : dot_S128x16_S16x4096_S128x4096_1_0_0_1_n_n.contr.Idx) :
    (dot_S128x16_S16x4096_S128x4096_1_0_0_1_n_n.rhsIdx i q 0).val = (q ⟨0, by decide⟩).val :=
  dot_S128x16_S16x4096_S128x4096_1_0_0_1_n_n.rhsIdx_val_of_single rfl i q
theorem rhs_lora_1 (i : S128x4096.Idx) (q : dot_S128x16_S16x4096_S128x4096_1_0_0_1_n_n.contr.Idx) :
    (dot_S128x16_S16x4096_S128x4096_1_0_0_1_n_n.rhsIdx i q 1).val = (i 1).val := by
  unfold DotDims.rhsIdx
  rw [dif_neg (show ¬(1 : Fin S16x4096.rank) ∈ dot_S128x16_S16x4096_S128x4096_1_0_0_1_n_n.rhsBatch by decide), dif_pos (show (1 : Fin S16x4096.rank) ∈ dot_S128x16_S16x4096_S128x4096_1_0_0_1_n_n.rhsNonContracting by decide)]
  rfl

/-- The tile's rank-16 product at (p, i) is Σ_r B[p, r] · A[r, i]. -/
theorem lora_apply (v0 : FVec Ideal S128x16 .f32) (v1 : FVec Ideal S16x4096 .f32) (p : Fin 128) (i : Fin 4096) :
    matmul dot_S128x16_S16x4096_S128x4096_1_0_0_1_n_n (some .fp32) v0 v1 (constant (F := Ideal) S128x4096 .f32 0x00000000#32) (ix2 p i)
      = ∑ r : Fin 16, v0 (ix2 p r) * v1 (ix2 r i) := by
  simp only [matmul]
  rw [Ideal.matmul_constant_zero_apply, ← Equiv.sum_comp (contrEquiv1 dot_S128x16_S16x4096_S128x4096_1_0_0_1_n_n 16 rfl rfl).symm]
  refine Finset.sum_congr rfl fun k _ => ?_
  have hk := contrEquiv1_symm_val dot_S128x16_S16x4096_S128x4096_1_0_0_1_n_n 16 rfl rfl k
  have el : dot_S128x16_S16x4096_S128x4096_1_0_0_1_n_n.lhsIdx (ix2 p i) ((contrEquiv1 dot_S128x16_S16x4096_S128x4096_1_0_0_1_n_n 16 rfl rfl).symm k) = ix2 p k := funext fun a => Fin.ext (by
    match a with
    | ⟨0, _⟩ => exact lhs_lora_0 _ _
    | ⟨1, _⟩ => exact (lhs_lora_1 _ _).trans hk)
  have er : dot_S128x16_S16x4096_S128x4096_1_0_0_1_n_n.rhsIdx (ix2 p i) ((contrEquiv1 dot_S128x16_S16x4096_S128x4096_1_0_0_1_n_n 16 rfl rfl).symm k) = ix2 k i := funext fun a => Fin.ext (by
    match a with
    | ⟨0, _⟩ => exact (rhs_lora_0 _ _).trans hk
    | ⟨1, _⟩ => exact rhs_lora_1 _ _)
  rw [el, er]

/-! ## The body's payload at an index -/

/-- The one store's payload at row `p`, column `i` of the tile: the merged weight there, fake-quantised at the
    scale of its group. -/
theorem pay1_apply (v0 : Vec Ideal S128x16 .f32) (v1 : Vec Ideal S16x4096 .f32) (v3 : Vec Ideal S128x4096 .f32) (v8 : Vec Ideal S128x32 .f32)
    (p : Fin 128) (i : Fin 4096) :
    k0_pay1 (F := Ideal) v0 v1 v3 v8 (ix2 p i)
      = Spec.quant (v3 (ix2 p i) + Spec.one * ∑ r : Fin 16, v0 (ix2 p r) * v1 (ix2 r i)) (v8 (ix2 p ⟨i.val / 128, by have := i.isLt; omega⟩)) := by
  unfold k0_pay1
  refine (truncf_apply (ψ := .bf16) _ bitsLt_bf16_f32 (ix2 p i)).trans ?_
  refine (cast_rows _ p i).trans ?_
  have hcol : (⟨i.val / 128 * 128 + i.val % 128, by have := i.isLt; omega⟩ : Fin 4096) = i := Fin.ext (by show i.val / 128 * 128 + i.val % 128 = i.val; omega)
  show Ideal.liftRound Ideal.roundHalfEven (min (Ideal.ofBits .f32 0x40E00000#32) (max (Ideal.ofBits .f32 0xC1000000#32)
      (Ideal.div (shapeCast S128x32x128 _ shapeCasts_S128x4096_S128x32x128 (ix3 p ⟨i.val / 128, by have := i.isLt; omega⟩ ⟨i.val % 128, Nat.mod_lt _ (by decide)⟩))
        (broadcastTo S128x32x128 _ broadcasts_S128x32x1_S128x32x128 (ix3 p ⟨i.val / 128, by have := i.isLt; omega⟩ ⟨i.val % 128, Nat.mod_lt _ (by decide)⟩) + Ideal.ofBits .f32 0x3089705F#32))))
    * broadcastTo S128x32x128 _ broadcasts_S128x32x1_S128x32x128 (ix3 p ⟨i.val / 128, by have := i.isLt; omega⟩ ⟨i.val % 128, Nat.mod_lt _ (by decide)⟩) = _
  rw [scale_bcast v8 p ⟨i.val / 128, by have := i.isLt; omega⟩ ⟨i.val % 128, Nat.mod_lt _ (by decide)⟩,
    cast_groups _ p ⟨i.val / 128, by have := i.isLt; omega⟩ ⟨i.val % 128, Nat.mod_lt _ (by decide)⟩, hcol, Spec.ofBits_hi, Spec.ofBits_lo]
  show Ideal.liftRound Ideal.roundHalfEven (min Spec.hi (max Spec.lo (Ideal.div (v3 (ix2 p i) + Ideal.ofBits .f32 0x3F800000#32
      * matmul dot_S128x16_S16x4096_S128x4096_1_0_0_1_n_n (some .fp32) v0 v1 (constant (F := Ideal) S128x4096 .f32 0x00000000#32) (ix2 p i)) _))) * _ = _
  rw [lora_apply v0 v1 p i]
  rfl

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- What the quantised-weight array ends holding, as one function of the arrays the region reads: the base weight,
    the two low-rank factors and the 4096 × 32 scales. -/
def Gwq (w0 : S4096x4096.Idx → EReal) (la : S16x4096.Idx → EReal) (lb : S4096x16.Idx → EReal) (s2 : S4096x32.Idx → EReal) :
    S4096x4096.Idx → EReal :=
  fun i => Spec.quant (Spec.wcomb w0 la lb (i 0) (i 1)) (s2 (ix2 (i 0) ⟨(i 1).val / 128, by have h : (i 1).val < 4096 := (i 1).isLt; omega⟩))

/-- The printed index maps over the grid: point `t` stages row tile `t` of the base weight, of factor B, of the scales and
    of the output, and the whole of factor A. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input blocks at point `t`, read at an index, are the arrays at the tile's rows. -/
theorem blk0_0 (c : Dev nD) (t : Fin cfg0.N) (p : Fin 128) (i : Fin 4096) :
    iblk0 V c 0 t (ix2 p i) = V c main_arg1 (ix2 ⟨t.val * 128 + p.val, by have := lt_of_lt_of_eq t.isLt N_0; have := p.isLt; omega⟩ i) := by
  obtain ⟨e0, e1, -⟩ := idx_facts0 t
  show V c main_arg1 (((cfg0.win 0).blk t).view.emb (ix2 p i)) = _
  refine congrArg (V c main_arg1) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 4096 + 1 * i.val = i.val; rw [e1]; omega
theorem blk0_1 (c : Dev nD) (t : Fin cfg0.N) (r : Fin 16) (i : Fin 4096) :
    iblk0 V c 1 t (ix2 r i) = V c main_arg2 (ix2 r i) := by
  obtain ⟨-, -, e2, e3, -⟩ := idx_facts0 t
  show V c main_arg2 (((cfg0.win 1).blk t).view.emb (ix2 r i)) = _
  refine congrArg (V c main_arg2) (funext fun a => Fin.ext ?_)
  match a with
  | ⟨0, _⟩ => show win0_1.index t (0 : Fin 2) * 16 + 1 * r.val = r.val; rw [e2]; omega
  | ⟨1, _⟩ => show win0_1.index t (1 : Fin 2) * 4096 + 1 * i.val = i.val; rw [e3]; omega
theorem blk0_2 (c : Dev nD) (t : Fin cfg0.N) (p : Fin 128) (r : Fin 16) :
    iblk0 V c 2 t (ix2 p r) = V c main_arg3 (ix2 ⟨t.val * 128 + p.val, by have := lt_of_lt_of_eq t.isLt N_0; have := p.isLt; omega⟩ r) := by
  obtain ⟨-, -, -, -, e4, e5, -⟩ := idx_facts0 t
  show V c main_arg3 (((cfg0.win 2).blk t).view.emb (ix2 p r)) = _
  refine congrArg (V c main_arg3) (funext fun a => Fin.ext ?_)
  match a with
  | ⟨0, _⟩ => show win0_2.index t (0 : Fin 2) * 128 + 1 * p.val = t.val * 128 + p.val; rw [e4]; omega
  | ⟨1, _⟩ => show win0_2.index t (1 : Fin 2) * 16 + 1 * r.val = r.val; rw [e5]; omega
theorem blk0_3 (c : Dev nD) (t : Fin cfg0.N) (p : Fin 128) (g : Fin 32) :
    iblk0 V c 3 t (ix2 p g) = V c main_v0 (ix2 ⟨t.val * 128 + p.val, by have := lt_of_lt_of_eq t.isLt N_0; have := p.isLt; omega⟩ g) := by
  obtain ⟨-, -, -, -, -, -, e6, e7, -⟩ := idx_facts0 t
  show V c main_v0 (((cfg0.win 3).blk t).view.emb (ix2 p g)) = _
  refine congrArg (V c main_v0) (funext fun a => Fin.ext ?_)
  match a with
  | ⟨0, _⟩ => show win0_3.index t (0 : Fin 2) * 128 + 1 * p.val = t.val * 128 + p.val; rw [e6]; omega
  | ⟨1, _⟩ => show win0_3.index t (1 : Fin 2) * 32 + 1 * g.val = g.val; rw [e7]; omega
/-- The output tile's index (p, i) is the array's (128 t + p, i). -/
theorem emb0_4 (t : Fin cfg0.N) (p : Fin 128) (i : Fin 4096) :
    ((cfg0.win 4).blk t).view.emb (ix2 p i) = ix2 ⟨t.val * 128 + p.val, by have := lt_of_lt_of_eq t.isLt N_0; have := p.isLt; omega⟩ i := by
  obtain ⟨-, -, -, -, -, -, -, -, e8, e9⟩ := idx_facts0 t
  refine funext fun a => Fin.ext ?_
  match a with
  | ⟨0, _⟩ => show win0_4.index t (0 : Fin 2) * 128 + 1 * p.val = t.val * 128 + p.val; rw [e8]; omega
  | ⟨1, _⟩ => show win0_4.index t (1 : Fin 2) * 4096 + 1 * i.val = i.val; rw [e9]; omega

/-- WHAT POINT `t` WRITES BACK is tile `t` of `Gwq` of the arrays as the region finds them. -/
theorem flushed0_eq (c : Dev nD) (t : Fin cfg0.N) :
    (dat0 V c).flushed 4 t
      = ((cfg0.win 4).blk t).view.read (Elt Ideal) (Gwq (V c main_arg1) (V c main_arg2) (V c main_arg3) (V c main_v0)) := by
  show (cfg0.win 4).cut (grid0.coords t) ((dat0 V c).after 4 t) = _
  rw [after0_4]
  unfold out0_4
  rw [View.canon_unit_zero hz]
  simp only [View.ld_unit_zero (S := S128x4096) hz, View.ld_unit_zero (S := S16x4096) hz, View.ld_unit_zero (S := S128x16) hz,
    View.ld_unit_zero (S := S128x32) hz]
  funext j
  obtain ⟨p, i, rfl⟩ : ∃ (p : Fin 128) (i : Fin 4096), j = ix2 p i := ⟨j 0, j 1, eq_ix2 j⟩
  show k0_pay1 (F := Ideal) (iblk0 V c 2 t) (iblk0 V c 1 t) (iblk0 V c 0 t) (iblk0 V c 3 t) (ix2 p i)
    = Gwq (V c main_arg1) (V c main_arg2) (V c main_arg3) (V c main_v0) (((cfg0.win 4).blk t).view.emb (ix2 p i))
  rw [emb0_4 t p i]
  refine (pay1_apply (iblk0 V c 2 t) (iblk0 V c 1 t) (iblk0 V c 0 t) (iblk0 V c 3 t) p i).trans ?_
  rw [blk0_0 V c t p i, blk0_3 V c t p ⟨i.val / 128, by have := i.isLt; omega⟩]
  simp only [blk0_1 V c t, blk0_2 V c t]
  rfl

/-- An index of the array is in point `t`'s tile iff each coordinate is in the tile's range on its axis. -/
theorem mem_blk0 (t : Fin cfg0.N) (i : S4096x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v1).slice (win0_4.rect t)).set ↔ _
  rw [View.set_slice_whole, Rect.mem_set_unit]
  exact Iff.rfl

/-- The 32 tiles cover the array: row `r` is in tile r / 128. -/
theorem cover0 (i : S4096x4096.Idx) : ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 32 := N_0
  obtain ⟨t, ht⟩ : ∃ t : Fin cfg0.N, t.val = (i 0).val / 128 := ⟨⟨(i 0).val / 128, by rw [hN]; omega⟩, rfl⟩
  obtain ⟨-, -, -, -, -, -, -, -, e8, e9⟩ := idx_facts0 t
  refine ⟨t, flush0_4 t, ?_⟩
  rw [mem_blk0]
  intro a
  match a with
  | ⟨0, _⟩ => show win0_4.index t (0 : Fin 2) * 128 ≤ (i 0).val ∧ (i 0).val < win0_4.index t (0 : Fin 2) * 128 + 128; rw [e8, ht]; omega
  | ⟨1, _⟩ => show win0_4.index t (1 : Fin 2) * 4096 ≤ (i 1).val ∧ (i 1).val < win0_4.index t (1 : Fin 2) * 4096 + 4096; rw [e9]; omega

/-- THE ARRAY after region 0: `Gwq` of the arrays as the region finds them. -/
theorem final0 (c : Dev nD) :
    (dat0 V c).arrAt 4 cfg0.N = Gwq (V c main_arg1) (V c main_arg2) (V c main_arg3) (V c main_v0) :=
  (dat0 V c).arrAt_eq_of_cover 4 _ (fun t _ => flushed0_eq V c t) cover0

end Cert.KernelIdeal.Value0

end
-- ==== Proof.R1Value.lean ====
/-
  What region 1 leaves in its output array, at the ideal values: entry (r, n) is Σ_i xs[r, i] · wq[n, i] + bias[0, n],
  with xs the 8192 × 4096 activations, wq the 4096 × 4096 quantised weight (contracted along its second axis) and
  bias the 1 × 4096 row. Point t = 16 a + 4 b + k of the grid works on row tile a, column tile b and contraction
  block k; the scratch after it holds 0 + S_0 + … + S_k, S_k the product of the two blocks over contraction block k,
  and at k = 3 the tile (a, b) is written: the four block sums are the whole sum, and the 32 tiles cover the array.
-/
import proofs.«179960_j30837865185896_1_alg».proof.Proof.FrameKI.R1
import proofs.«179960_j30837865185896_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Value1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

/-! ## The block product, read at an index -/

theorem lhs_mm_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_mm_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_mm_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_mm_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of an activation block and a weight block, both contracted along their second axis, at (p, q). -/
theorem mm_apply (x0 x1 : FVec Ideal S1024x1024 .bf16) (p q : Fin 1024) :
    matmul dot_S1024x1024_S1024x1024_S1024x1024_1_1_0_0_n_n none x0 x1 (constant (F := Ideal) S1024x1024 .f32 0x00000000#32) (ix2 p q)
      = ∑ k : Fin 1024, x0 (ix2 p k) * x1 (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-! ## The body's payloads at an index -/

/-- The reset value of the accumulator is zero everywhere. -/
theorem pay1_zero (p q : Fin 1024) : k1_pay1 (F := Ideal) (ix2 p q) = 0 := by
  unfold k1_pay1
  rw [shapeCast_self]
  exact Ideal.ofBits_zero_f32

/-- The accumulator's update: what it held plus the block product. -/
theorem pay2_apply (a : Vec Ideal S1024x1024 .f32) (x0 x1 : Vec Ideal S1024x1024 .bf16) (p q : Fin 1024) :
    k1_pay2 (F := Ideal) a x0 x1 (ix2 p q) = a (ix2 p q) + ∑ k : Fin 1024, x0 (ix2 p k) * x1 (ix2 q k) := by
  unfold k1_pay2
  rw [shapeCast_self, shapeCast_self, shapeCast_self]
  show a (ix2 p q) + matmul dot_S1024x1024_S1024x1024_S1024x1024_1_1_0_0_n_n none x0 x1 (constant (F := Ideal) S1024x1024 .f32 0x00000000#32) (ix2 p q) = _
  rw [mm_apply]

/-- The output store's value: the accumulator plus the bias row's entry of the column. -/
theorem pay3_apply (a : Vec Ideal S1024x1024 .f32) (b : Vec Ideal S1x1024 .f32) (p q : Fin 1024) :
    k1_pay3 (F := Ideal) a b (ix2 p q) = a (ix2 p q) + b (ix2 (0 : Fin 1) q) := by
  unfold k1_pay3
  rw [shapeCast_self]
  show a (ix2 p q) + broadcastTo S1024x1024 b broadcasts_S1x1024_S1024x1024 (ix2 p q) = _
  rw [broadcastTo_apply b broadcasts_S1x1024_S1024x1024 (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])]

/-! ## The accumulator at an index, point by point -/

variable (V : (c : Dev nD) → (b : Ref sig .tc) → Buf (Elt Ideal) ((c : Thread nD τ).loc b))

/-- The activation block and the weight block of point `n`, and the three arrays the region reads, at their literal types. -/
abbrev xb (c : Dev nD) (n : ℕ) (hn : n < cfg1.N) : Vec Ideal S1024x1024 .bf16 := iblk1 V c 0 ⟨n, hn⟩
abbrev wb (c : Dev nD) (n : ℕ) (hn : n < cfg1.N) : Vec Ideal S1024x1024 .bf16 := iblk1 V c 1 ⟨n, hn⟩
abbrev xsArr (c : Dev nD) : S8192x4096.Idx → EReal := V c main_v3
abbrev wqArr (c : Dev nD) : S4096x4096.Idx → EReal := V c main_v1
abbrev b2Arr (c : Dev nD) : S1x4096.Idx → EReal := V c main_v4

/-- The block product of point `n` at (p, q). -/
def S1 (c : Dev nD) (n : ℕ) (hn : n < cfg1.N) (p q : Fin 1024) : EReal :=
  ∑ k : Fin 1024, xb V c n hn (ix2 p k) * wb V c n hn (ix2 q k)

theorem acc_reset (c : Dev nD) (n : ℕ) (hn : n < cfg1.N) (h0 : n % 4 = 0) (p q : Fin 1024) :
    accAt1 V c n hn (ix2 p q) = 0 + S1 V c n hn p q := by
  refine (congrFun (accAt1_reset V c ⟨n, hn⟩ h0) (ix2 p q)).trans ?_
  refine (pay2_apply (k1_pay1 (F := Ideal)) (iblk1 V c 0 ⟨n, hn⟩) (iblk1 V c 1 ⟨n, hn⟩) p q).trans ?_
  rw [pay1_zero]
  rfl

theorem acc_step (c : Dev nD) (n : ℕ) (hn : n < cfg1.N) (h0 : ¬n % 4 = 0) (p q : Fin 1024) :
    accAt1 V c n hn (ix2 p q) = accAt1 V c (n - 1) (Nat.lt_of_le_of_lt (Nat.sub_le _ _) hn) (ix2 p q) + S1 V c n hn p q := by
  refine (congrFun (accAt1_step V c ⟨n, hn⟩ h0) (ix2 p q)).trans ?_
  exact pay2_apply (accAt1 V c (n - 1) (Nat.lt_of_le_of_lt (Nat.sub_le _ _) hn)) (iblk1 V c 0 ⟨n, hn⟩) (iblk1 V c 1 ⟨n, hn⟩) p q

/-- At a storing point (contraction coordinate 3) the accumulator is the four block products added in order onto zero. -/
theorem acc_at_store (c : Dev nD) (n : ℕ) (hn : n < cfg1.N) (h3 : n % 4 = 3) (p q : Fin 1024) :
    accAt1 V c n hn (ix2 p q)
      = (((0 + S1 V c (n - 1 - 1 - 1) (by omega) p q) + S1 V c (n - 1 - 1) (by omega) p q) + S1 V c (n - 1) (by omega) p q) + S1 V c n hn p q := by
  rw [acc_step V c n hn (by omega) p q, acc_step V c (n - 1) (by omega) (by omega) p q,
    acc_step V c (n - 1 - 1) (by omega) (by omega) p q, acc_reset V c (n - 1 - 1 - 1) (by omega) (by omega) p q]

/-! ## From the tiles to the array -/

/-- The printed index maps over the grid: point t = 16 a + 4 b + k stages activation block (a, k), weight block (b, k),
    bias block (0, b) and output tile (a, b). -/
theorem idx_facts1 : ∀ t : Fin cfg1.N, win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

theorem blk1_0 (c : Dev nD) (t : Fin cfg1.N) (p k : Fin 1024) :
    iblk1 V c 0 t (ix2 p k) = xsArr V c (ix2 ⟨t.val / 16 * 1024 + p.val, by have := lt_of_lt_of_eq t.isLt N_1; have := p.isLt; omega⟩
      ⟨t.val % 4 * 1024 + k.val, by have := k.isLt; omega⟩) := by
  obtain ⟨e0, e1, -⟩ := idx_facts1 t
  show V c main_v3 (((cfg1.win 0).blk t).view.emb (ix2 p k)) = _
  refine congrArg (V c main_v3) (funext fun a => Fin.ext ?_)
  match a with
  | ⟨0, _⟩ => show win1_0.index t (0 : Fin 2) * 1024 + 1 * p.val = t.val / 16 * 1024 + p.val; rw [e0]; omega
  | ⟨1, _⟩ => show win1_0.index t (1 : Fin 2) * 1024 + 1 * k.val = t.val % 4 * 1024 + k.val; rw [e1]; omega
theorem blk1_1 (c : Dev nD) (t : Fin cfg1.N) (q k : Fin 1024) :
    iblk1 V c 1 t (ix2 q k) = wqArr V c (ix2 ⟨t.val / 4 % 4 * 1024 + q.val, by have := q.isLt; omega⟩
      ⟨t.val % 4 * 1024 + k.val, by have := k.isLt; omega⟩) := by
  obtain ⟨-, -, e2, e3, -⟩ := idx_facts1 t
  show V c main_v1 (((cfg1.win 1).blk t).view.emb (ix2 q k)) = _
  refine congrArg (V c main_v1) (funext fun a => Fin.ext ?_)
  match a with
  | ⟨0, _⟩ => show win1_1.index t (0 : Fin 2) * 1024 + 1 * q.val = t.val / 4 % 4 * 1024 + q.val; rw [e2]; omega
  | ⟨1, _⟩ => show win1_1.index t (1 : Fin 2) * 1024 + 1 * k.val = t.val % 4 * 1024 + k.val; rw [e3]; omega
theorem blk1_2 (c : Dev nD) (t : Fin cfg1.N) (q : Fin 1024) :
    iblk1 V c 2 t (ix2 (0 : Fin 1) q) = b2Arr V c (ix2 (0 : Fin 1) ⟨t.val / 4 % 4 * 1024 + q.val, by have := q.isLt; omega⟩) := by
  obtain ⟨-, -, -, -, e4, e5, -⟩ := idx_facts1 t
  show V c main_v4 (((cfg1.win 2).blk t).view.emb (ix2 (0 : Fin 1) q)) = _
  refine congrArg (V c main_v4) (funext fun a => Fin.ext ?_)
  match a with
  | ⟨0, _⟩ => show win1_2.index t (0 : Fin 2) * 1 + 1 * 0 = 0; rw [e4]
  | ⟨1, _⟩ => show win1_2.index t (1 : Fin 2) * 1024 + 1 * q.val = t.val / 4 % 4 * 1024 + q.val; rw [e5]; omega
theorem emb1_3 (t : Fin cfg1.N) (p q : Fin 1024) :
    ((cfg1.win 3).blk t).view.emb (ix2 p q) = ix2 ⟨t.val / 16 * 1024 + p.val, by have := lt_of_lt_of_eq t.isLt N_1; have := p.isLt; omega⟩
      ⟨t.val / 4 % 4 * 1024 + q.val, by have := q.isLt; omega⟩ := by
  obtain ⟨-, -, -, -, -, -, e6, e7⟩ := idx_facts1 t
  refine funext fun a => Fin.ext ?_
  match a with
  | ⟨0, _⟩ => show win1_3.index t (0 : Fin 2) * 1024 + 1 * p.val = t.val / 16 * 1024 + p.val; rw [e6]; omega
  | ⟨1, _⟩ => show win1_3.index t (1 : Fin 2) * 1024 + 1 * q.val = t.val / 4 % 4 * 1024 + q.val; rw [e7]; omega

/-- The block product of a point with row tile `R`, column tile `C` and contraction offset `off`, over the arrays. -/
theorem S1_at (c : Dev nD) (n : ℕ) (hn : n < cfg1.N) (R C off : ℕ) (hR : n / 16 = R) (hC : n / 4 % 4 = C) (hK : n % 4 * 1024 = off)
    (p q : Fin 1024) (hRb : R * 1024 + p.val < 8192) (hCb : C * 1024 + q.val < 4096) (hob : off + 1023 < 4096) :
    S1 V c n hn p q = ∑ k : Fin 1024, xsArr V c (ix2 ⟨R * 1024 + p.val, hRb⟩ ⟨off + k.val, by have := k.isLt; omega⟩)
      * wqArr V c (ix2 ⟨C * 1024 + q.val, hCb⟩ ⟨off + k.val, by have := k.isLt; omega⟩) := by
  subst hR hC hK
  unfold S1
  exact Finset.sum_congr rfl fun k _ =>
    congrArg₂ (fun a b : EReal => a * b) (blk1_0 V c ⟨n, hn⟩ p k) (blk1_1 V c ⟨n, hn⟩ q k)

/-- What the output array ends holding, as one function of the arrays the region reads. -/
def Gout (xs : S8192x4096.Idx → EReal) (wq : S4096x4096.Idx → EReal) (b2 : S1x4096.Idx → EReal) : S8192x4096.Idx → EReal :=
  fun i => (∑ k : Fin 4096, xs (ix2 (i 0) k) * wq (ix2 (i 1) k)) + b2 (ix2 (0 : Fin 1) (i 1))

/-- WHAT A STORING POINT WRITES BACK is its tile of `Gout` of the arrays as the region finds them. -/
theorem flushed1_eq (c : Dev nD) (t : Fin cfg1.N) (hf : (cfg1.win 3).flush t = true) :
    (dat1 V c).flushed 3 t = ((cfg1.win 3).blk t).view.read (Elt Ideal) (Gout (xsArr V c) (wqArr V c) (b2Arr V c)) := by
  have h3 : t.val % 4 = 3 := (flush1_3 t).mp hf
  have hN : t.val < 128 := lt_of_lt_of_eq t.isLt N_1
  show (cfg1.win 3).cut (grid1.coords t) ((dat1 V c).after 3 t) = _
  rw [after1_3]
  funext j
  obtain ⟨p, q, rfl⟩ : ∃ (p q : Fin 1024), j = ix2 p q := ⟨j 0, j 1, eq_ix2 j⟩
  show k1_pay3 (F := Ideal) (accAt1 V c t.val t.isLt) (iblk1 V c 2 t) (ix2 p q)
    = Gout (xsArr V c) (wqArr V c) (b2Arr V c) (((cfg1.win 3).blk t).view.emb (ix2 p q))
  rw [emb1_3 t p q]
  refine (pay3_apply (accAt1 V c t.val t.isLt) (iblk1 V c 2 t) p q).trans ?_
  have hp := p.isLt; have hq := q.isLt
  rw [acc_at_store V c t.val t.isLt h3 p q, blk1_2 V c t q,
    S1_at V c (t.val - 1 - 1 - 1) (by omega) (t.val / 16) (t.val / 4 % 4) 0 (by omega) (by omega) (by omega) p q (by omega) (by omega) (by omega),
    S1_at V c (t.val - 1 - 1) (by omega) (t.val / 16) (t.val / 4 % 4) 1024 (by omega) (by omega) (by omega) p q (by omega) (by omega) (by omega),
    S1_at V c (t.val - 1) (by omega) (t.val / 16) (t.val / 4 % 4) 2048 (by omega) (by omega) (by omega) p q (by omega) (by omega) (by omega),
    S1_at V c t.val t.isLt (t.val / 16) (t.val / 4 % 4) 3072 rfl rfl (by omega) p q (by omega) (by omega) (by omega)]
  exact congrArg (· + b2Arr V c (ix2 (0 : Fin 1) ⟨t.val / 4 % 4 * 1024 + q.val, by omega⟩))
    (Spec.sum_blocks4 fun i => xsArr V c (ix2 ⟨t.val / 16 * 1024 + p.val, by omega⟩ i) * wqArr V c (ix2 ⟨t.val / 4 % 4 * 1024 + q.val, by omega⟩ i))

theorem mem_blk1 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v5).slice (win1_3.rect t)).set ↔ _
  rw [View.set_slice_whole, Rect.mem_set_unit]
  exact Iff.rfl

/-- The 32 tiles cover the array: entry (r, n) is in the tile written at point 16 (r / 1024) + 4 (n / 1024) + 3. -/
theorem cover1 (i : S8192x4096.Idx) : ∃ t : Fin cfg1.N, (cfg1.win 3).flush t = true ∧ i ∈ ((cfg1.win 3).blk t).view.set := by
  have h0 : (i 0).val < 8192 := (i 0).isLt
  have h1 : (i 1).val < 4096 := (i 1).isLt
  have hN : cfg1.N = 128 := N_1
  obtain ⟨t, ht⟩ : ∃ t : Fin cfg1.N, t.val = (i 0).val / 1024 * 16 + (i 1).val / 1024 * 4 + 3 :=
    ⟨⟨(i 0).val / 1024 * 16 + (i 1).val / 1024 * 4 + 3, by rw [hN]; omega⟩, rfl⟩
  obtain ⟨-, -, -, -, -, -, e6, e7⟩ := idx_facts1 t
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; rw [e6, ht]; omega
  | ⟨1, _⟩ => show win1_3.index t (1 : Fin 2) * 1024 ≤ (i 1).val ∧ (i 1).val < win1_3.index t (1 : Fin 2) * 1024 + 1024; rw [e7, ht]; omega

/-- THE ARRAY after region 1: `Gout` of the arrays as the region finds them. -/
theorem final1 (c : Dev nD) :
    (dat1 V c).arrAt 3 cfg1.N = Gout (xsArr V c) (wqArr V c) (b2Arr V c) :=
  (dat1 V c).arrAt_eq_of_cover 3 _ (fun t hf => flushed1_eq V c t hf) cover1

end Cert.KernelIdeal.Value1

end
-- ==== Proof.KernelValue.lean ====
/-
  The idealized kernel program's result as one function of its arguments. The last boundary's contents at the
  result buffer are read back through the fold: the final reshape of region 1's output array; that array is the
  linear layer of the reshaped activations (their change of format is the identity at the ideal values), the
  quantised weight region 0 left, and the reshaped bias; the quantised weight is the specification's of the
  arguments, the scales read through their reshape to 4096 × 32 (entry (o, g) is the flat entry o · 32 + g).
-/
import proofs.«179960_j30837865185896_1_alg».proof.Proof.FrameKI.Run
import proofs.«179960_j30837865185896_1_alg».proof.Proof.R0Value
import proofs.«179960_j30837865185896_1_alg».proof.Proof.R1Value
import proofs.«179960_j30837865185896_1_alg».proof.Proof.Spec
import Idealize.ShloMosaic.Lib.StableHlo.Run

set_option maxRecDepth 16384

noncomputable section

namespace Cert.KernelIdeal.ValueRun

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

open Cert.KernelIdeal.Value0 Cert.KernelIdeal.Value1 Idealize.ShloMosaic.StableHlo

variable (m : (ℓ : Loc nD τ sig) → Buf (Elt Ideal) ℓ)

/-! ## What the host stretches write -/

theorem W1_v0 (c : Dev nD) :
    W1 m c (Proc.devRef .tc main_v0) = shapeCast S4096x32 (m ((c : Thread nD τ).loc main_arg4)) shapeCasts_S131072_S4096x32 := by
  show StableHlo.after hostOps0 (W0 m c) (Proc.devRef .tc main_v0) = _
  after_results <;> rfl

theorem W3_v3 (c : Dev nD) :
    W3 m c (Proc.devRef .tc main_v3)
      = truncf (F := Ideal) .bf16 (shapeCast S8192x4096 (W2 m c (Proc.devRef .tc main_arg0)) shapeCasts_S8x1024x4096_S8192x4096) bitsLt_bf16_f32 := by
  show StableHlo.after hostOps1 (W2 m c) (Proc.devRef .tc main_v3) = _
  after_results <;> rfl

theorem W3_v4 (c : Dev nD) :
    W3 m c (Proc.devRef .tc main_v4) = shapeCast S1x4096 (W2 m c (Proc.devRef .tc main_arg5)) shapeCasts_S4096_S1x4096 := by
  show StableHlo.after hostOps1 (W2 m c) (Proc.devRef .tc main_v4) = _
  after_results <;> rfl

theorem W5_v6 (c : Dev nD) :
    W5 m c (Proc.devRef .tc main_v6) = shapeCast S8x1024x4096 (W4 m c (Proc.devRef .tc main_v5)) shapeCasts_S8192x4096_S8x1024x4096 := by
  show StableHlo.after hostOps2 (W4 m c) (Proc.devRef .tc main_v6) = _
  after_results <;> rfl

/-! ## The buffers a region reads, at its entry -/

theorem V1_arg (c : Dev nD) (r : Ref sig .tc) (h : r ∉ hostOps0_W) : Frame.V1 m c r = m ((c : Thread nD τ).loc r) :=
  (W1_keep m c r h).trans rfl

theorem W2_arg0 (c : Dev nD) : W2 m c (Proc.devRef .tc main_arg0) = m ((c : Thread nD τ).loc main_arg0) :=
  (W2_of_ne m c main_arg0 (by decide)).trans ((W1_keep m c main_arg0 (by decide)).trans rfl)
theorem W2_arg5 (c : Dev nD) : W2 m c (Proc.devRef .tc main_arg5) = m ((c : Thread nD τ).loc main_arg5) :=
  (W2_of_ne m c main_arg5 (by decide)).trans ((W1_keep m c main_arg5 (by decide)).trans rfl)

/-- The quantised weight region 1 reads is what region 0 left: the specification's array function of the arguments. -/
theorem V3_v1 (c : Dev nD) :
    Frame.V3 m c main_v1 = Gwq (m ((c : Thread nD τ).loc main_arg1)) (m ((c : Thread nD τ).loc main_arg2)) (m ((c : Thread nD τ).loc main_arg3))
      (shapeCast S4096x32 (m ((c : Thread nD τ).loc main_arg4)) shapeCasts_S131072_S4096x32) := by
  have h1 : Frame.V3 m c main_v1 = W2 m c (Proc.devRef .tc main_v1) := W3_keep m c main_v1 (by decide)
  have h2 : W2 m c (Proc.devRef .tc main_v1) = (dat0 (Frame.V1 m) c).arrAt 4 cfg0.N := W2_arr m c 4
  rw [h1, h2, final0 (Frame.V1 m) c, V1_arg m c main_arg1 (by decide), V1_arg m c main_arg2 (by decide), V1_arg m c main_arg3 (by decide)]
  exact congrArg (Gwq _ _ _) (W1_v0 m c)

/-! ## The result, index by index -/

/-- The reshaped activations, format changed, at row b · 1024 + t. -/
theorem xs_apply (x : S8x1024x4096.Idx → EReal) (b : Fin 8) (t : Fin 1024) (k : Fin 4096) :
    truncf (F := Ideal) .bf16 (shapeCast S8192x4096 x shapeCasts_S8x1024x4096_S8192x4096) bitsLt_bf16_f32
        (ix2 ⟨b.val * 1024 + t.val, by have := b.isLt; have := t.isLt; omega⟩ k) = x (ix3 b t k) := by
  refine (truncf_apply (ψ := .bf16) _ bitsLt_bf16_f32 _).trans ?_
  exact shapeCast_apply x shapeCasts_S8x1024x4096_S8192x4096 _ (ix3 b t k) (by
    rw [Shape.rowMajor_val_three, Shape.rowMajor_val_two]
    show (b.val * 1024 + t.val) * 4096 + k.val = (b.val * 1024 + t.val) * 4096 + k.val
    rfl)

/-- The reshaped scales at (o, g). -/
theorem s2_apply (q : S131072.Idx → EReal) (o : Fin 4096) (g : Fin 32) :
    shapeCast S4096x32 q shapeCasts_S131072_S4096x32 (ix2 o g) = q (ix1 ⟨o.val * 32 + g.val, by have := o.isLt; have := g.isLt; omega⟩) :=
  shapeCast_apply q shapeCasts_S131072_S4096x32 (ix2 o g) _ (by
    rw [Shape.rowMajor_val_one, Shape.rowMajor_val_two]
    show o.val * 32 + g.val = o.val * 32 + g.val
    rfl)

/-- The reshaped bias at (0, o). -/
theorem b2_apply (bias : S4096.Idx → EReal) (o : Fin 4096) :
    shapeCast S1x4096 bias shapeCasts_S4096_S1x4096 (ix2 (0 : Fin 1) o) = bias (ix1 o) :=
  shapeCast_apply bias shapeCasts_S4096_S1x4096 (ix2 (0 : Fin 1) o) _ (by
    rw [Shape.rowMajor_val_one, Shape.rowMajor_val_two]
    show o.val = 0 * 4096 + o.val
    omega)

/-- THE KERNEL PROGRAM'S RESULT at the last boundary: the specification's linear layer of the arguments. -/
theorem v6_apply (c : Dev nD) (b : Fin 8) (t : Fin 1024) (o : Fin 4096) :
    W5 m c (Proc.devRef .tc main_v6) (ix3 b t o)
      = Spec.out (m ((c : Thread nD τ).loc main_arg0))
          (Spec.wq (m ((c : Thread nD τ).loc main_arg1)) (m ((c : Thread nD τ).loc main_arg2)) (m ((c : Thread nD τ).loc main_arg3)) (m ((c : Thread nD τ).loc main_arg4)))
          (m ((c : Thread nD τ).loc main_arg5)) b t o := by
  have hb := b.isLt; have ht := t.isLt; have ho := o.isLt
  have h5 : W4 m c (Proc.devRef .tc main_v5) = Gout (Frame.V3 m c main_v3) (Frame.V3 m c main_v1) (Frame.V3 m c main_v4) :=
    (W4_arr m c 3).trans (final1 (Frame.V3 m) c)
  have e3 : Frame.V3 m c main_v3 = truncf (F := Ideal) .bf16 (shapeCast S8192x4096 (m ((c : Thread nD τ).loc main_arg0)) shapeCasts_S8x1024x4096_S8192x4096) bitsLt_bf16_f32 := by
    show W3 m c (Proc.devRef .tc main_v3) = _
    rw [W3_v3, W2_arg0]
  have e4 : Frame.V3 m c main_v4 = shapeCast S1x4096 (m ((c : Thread nD τ).loc main_arg5)) shapeCasts_S4096_S1x4096 := by
    show W3 m c (Proc.devRef .tc main_v4) = _
    rw [W3_v4, W2_arg5]
  rw [W5_v6, h5, e3, e4, V3_v1]
  refine (shapeCast_apply _ shapeCasts_S8192x4096_S8x1024x4096 (ix3 b t o) (ix2 ⟨b.val * 1024 + t.val, by omega⟩ o) (by
    rw [Shape.rowMajor_val_two, Shape.rowMajor_val_three]
    show (b.val * 1024 + t.val) * 4096 + o.val = (b.val * 1024 + t.val) * 4096 + o.val
    rfl)).trans ?_
  unfold Gout Spec.out
  refine congrArg₂ (fun u v : EReal => u + v) (Finset.sum_congr rfl fun k _ => ?_) (b2_apply _ o)
  refine congrArg₂ (fun u v : EReal => u * v) (xs_apply _ b t k) ?_
  unfold Gwq Spec.wq
  exact congrArg (Spec.quant _) (s2_apply _ o ⟨k.val / 128, by have := k.isLt; omega⟩)

/-- The same as an equation of arrays. -/
theorem v6_eq (c : Dev nD) :
    W5 m c (Proc.devRef .tc main_v6)
      = fun j => Spec.out (m ((c : Thread nD τ).loc main_arg0))
          (Spec.wq (m ((c : Thread nD τ).loc main_arg1)) (m ((c : Thread nD τ).loc main_arg2)) (m ((c : Thread nD τ).loc main_arg3)) (m ((c : Thread nD τ).loc main_arg4)))
          (m ((c : Thread nD τ).loc main_arg5)) (j 0) (j 1) (j 2) := by
  funext j
  obtain ⟨b, t, o, rfl⟩ : ∃ (b : Fin 8) (t : Fin 1024) (o : Fin 4096), j = ix3 b t o := ⟨j 0, j 1, j 2, eq_ix3 j⟩
  exact v6_apply m c b t o

/-- THE RUN WITH ITS VALUE: every weakly fair execution terminates with the result buffer at the specification's
    function of the arguments and the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v6)
        = (fun j => Spec.out (m ((c : Thread nD τ).loc main_arg0))
          (Spec.wq (m ((c : Thread nD τ).loc main_arg1)) (m ((c : Thread nD τ).loc main_arg2)) (m ((c : Thread nD τ).loc main_arg3)) (m ((c : Thread nD τ).loc main_arg4)))
          (m ((c : Thread nD τ).loc main_arg5)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v6 (by decide))).trans (v6_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_main m ρ)

end Cert.KernelIdeal.ValueRun

end
-- ==== Proof.RefValue.lean ====
/-
  What the reference computes, at the ideal values, index by index: its result at (b, t, o) is
  Σ_i x[b, t, i] · Wq[o, i] + bias[o], with Wq the fake-quantised merged weight of the specification. The
  reference groups the 4096 × 4096 weight as 131072 rows of 128 (entry (o, i) is row o · 32 + i / 128, position i mod 128),
  scales, clips to [−8, 7] (the bounds given as integers converted exactly), rounds half to even, rescales and
  regroups; read at an index every step is the specification's.
-/
import proofs.«179960_j30837865185896_1_alg».proof.Proof.Gen.ReferenceIdeal.Run
import proofs.«179960_j30837865185896_1_alg».proof.Proof.Gen.ReferenceIdeal.Read
import proofs.«179960_j30837865185896_1_alg».proof.Proof.Spec

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The merged weight. -/
theorem wcomb_ref (x1 : (⟨S4096x4096, .f32⟩ : BufTy).Contents (Elt Ideal)) (x2 : (⟨S16x4096, .f32⟩ : BufTy).Contents (Elt Ideal))
    (x3 : (⟨S4096x16, .f32⟩ : BufTy).Contents (Elt Ideal)) (o k : Fin 4096) :
    val_main_v3 (F := Ideal) x1 x2 x3 (ix2 o k) = Spec.wcomb x1 x2 x3 o k := by
  rw [val_main_v3_apply, val_main_v2_apply, val_main_v1_apply, val_main_cst_apply, val_main_v0_apply]
  have el : ∀ r : Fin 16, lidx_main_v0 (ix2 o k) r = ix2 o r := fun r => funext fun a => by
    match a with
    | ⟨0, _⟩ => rfl
    | ⟨1, _⟩ => rfl
  have er : ∀ r : Fin 16, ridx_main_v0 (ix2 o k) r = ix2 r k := fun r => funext fun a => by
    match a with
    | ⟨0, _⟩ => rfl
    | ⟨1, _⟩ => rfl
  simp only [el, er]
  rfl

/-- Row `J` of the grouped view has the scale of group `J`, with and without ε. -/
theorem scale_ref (x4 : (⟨S131072, .f32⟩ : BufTy).Contents (Elt Ideal)) (J : S131072x128.Idx) :
    val_main_v12 (F := Ideal) x4 J = x4 (ix1 ⟨(J 0).val, (J 0).isLt⟩) := by
  rw [val_main_v12_apply, val_main_v5_apply]
  exact congrArg x4 (funext fun a => by match a with | ⟨0, _⟩ => rfl)

theorem scale_eps_ref (x4 : (⟨S131072, .f32⟩ : BufTy).Contents (Elt Ideal)) (J : S131072x128.Idx) :
    val_main_v8 (F := Ideal) x4 J = x4 (ix1 ⟨(J 0).val, (J 0).isLt⟩) + Spec.eps := by
  rw [val_main_v8_apply, val_main_v7_apply, val_main_v5_apply, val_main_v6_apply, val_main_cst_0_apply]
  show x4 _ + Ideal.ofBits .f32 0x3089705F#32 = _
  exact congrArg (· + Spec.eps) (congrArg x4 (funext fun a => by match a with | ⟨0, _⟩ => rfl))

/-- The quantised weight, regrouped to 4096 × 4096. -/
theorem wq_ref (x1 : (⟨S4096x4096, .f32⟩ : BufTy).Contents (Elt Ideal)) (x2 : (⟨S16x4096, .f32⟩ : BufTy).Contents (Elt Ideal))
    (x3 : (⟨S4096x16, .f32⟩ : BufTy).Contents (Elt Ideal)) (x4 : (⟨S131072, .f32⟩ : BufTy).Contents (Elt Ideal)) (o k : Fin 4096) :
    val_main_v14 (F := Ideal) x1 x2 x3 x4 (ix2 o k) = Spec.wq x1 x2 x3 x4 o k := by
  have ho := o.isLt; have hk := k.isLt
  have hJ : idx_main_v4 (idx_main_v14 (ix2 o k)) = ix2 o k := funext fun a => Fin.ext (by
    match a with
    | ⟨0, _⟩ => show ((o.val * 4096 + k.val) / 128 * 128 + (o.val * 4096 + k.val) % 128) / 4096 = o.val; omega
    | ⟨1, _⟩ => show ((o.val * 4096 + k.val) / 128 * 128 + (o.val * 4096 + k.val) % 128) % 4096 = k.val; omega)
  have hg : (⟨(idx_main_v14 (ix2 o k) 0).val, (idx_main_v14 (ix2 o k) 0).isLt⟩ : Fin 131072) = Spec.grp o k := Fin.ext (by
    show (o.val * 4096 + k.val) / 128 = o.val * 32 + k.val / 128; omega)
  rw [val_main_v14_apply, val_main_v13_apply, val_main_v11_apply, val_main_v10_apply, val_main_call0_v4_apply,
    val_main_call0_v3_apply, val_main_c_1_apply, val_main_call0_v2_apply, val_main_call0_v1_apply, val_main_call0_v0_apply,
    val_main_c_apply, val_main_v9_apply, val_main_v4_apply, hJ, wcomb_ref, scale_ref, scale_eps_ref, hg]
  show Ideal.liftRound Ideal.roundHalfEven (min (((7#32 : BitVec 32).toInt : ℝ) : EReal) (max (((4294967288#32 : BitVec 32).toInt : ℝ) : EReal) (Ideal.div _ _))) * _ = _
  rw [Spec.toInt_hi, Spec.toInt_lo]
  rfl

/-- THE REFERENCE'S RESULT, index by index. -/
theorem out_ref (x0 : (⟨S8x1024x4096, .f32⟩ : BufTy).Contents (Elt Ideal)) (x1 : (⟨S4096x4096, .f32⟩ : BufTy).Contents (Elt Ideal))
    (x2 : (⟨S16x4096, .f32⟩ : BufTy).Contents (Elt Ideal)) (x3 : (⟨S4096x16, .f32⟩ : BufTy).Contents (Elt Ideal))
    (x4 : (⟨S131072, .f32⟩ : BufTy).Contents (Elt Ideal)) (x5 : (⟨S4096, .f32⟩ : BufTy).Contents (Elt Ideal)) (b : Fin 8) (t : Fin 1024) (o : Fin 4096) :
    val_main_v18 (F := Ideal) x0 x1 x2 x3 x4 x5 (ix3 b t o) = Spec.out x0 (Spec.wq x1 x2 x3 x4) x5 b t o := by
  rw [val_main_v18_apply, val_main_v15_apply, val_main_v17_apply, val_main_v16_apply]
  have el : ∀ k : Fin 4096, lidx_main_v15 (ix3 b t o) k = ix3 b t k := fun k => funext fun a => by
    match a with
    | ⟨0, _⟩ => rfl
    | ⟨1, _⟩ => rfl
    | ⟨2, _⟩ => rfl
  have er : ∀ k : Fin 4096, ridx_main_v15 (ix3 b t o) k = ix2 o k := fun k => funext fun a => by
    match a with
    | ⟨0, _⟩ => rfl
    | ⟨1, _⟩ => rfl
  have eb : idx_main_v16 (idx_main_v17 (ix3 b t o)) = ix1 o := funext fun a => by
    match a with
    | ⟨0, _⟩ => rfl
  simp only [el, er, eb, wq_ref]
  rfl

end Cert.ReferenceIdeal.RefValue

end
-- ==== Proof.lean ====
/-
  The certificate of the quantised LoRA linear layer against its reference.

  The kernel program merges the rank-16 update into the base weight, fake-quantises it to 4 bits in groups of 128
  (region 0, one row tile of 128 per grid point), and applies it to the activations with a bias (region 1, a
  1024³-tiled matmul accumulated in a scratch over four contraction blocks). The reference does the same with plain
  array operations. Over the extended reals the two agree entry by entry: every step but the last is the same
  operation on both sides read at an index, and the kernel's four block sums added in order onto zero are the
  reference's one sum, addition on the extended reals being commutative and associative (no finiteness is used).

  The three frames: the word-level and the idealized kernel program run through their two regions and three host
  stretches with the argument arrays untouched (modules FrameK, FrameKI: the scratch accumulator is carried in the
  region's invariant); the reference's frame is its run with the result dropped. The idealization rewrote nothing,
  so `preserves` is trivial.
-/
import proofs.«179960_j30837865185896_1_alg».proof.Defs
import proofs.«179960_j30837865185896_1_alg».proof.Proof.Gen.Kernel
import proofs.«179960_j30837865185896_1_alg».proof.Proof.Gen.KernelIdeal
import proofs.«179960_j30837865185896_1_alg».proof.Proof.Gen.ReferenceIdeal
import proofs.«179960_j30837865185896_1_alg».proof.Proof.Gen.Pre_finite_inputs
import proofs.«179960_j30837865185896_1_alg».proof.Proof.FrameK.Run
import proofs.«179960_j30837865185896_1_alg».proof.Proof.FrameKI.Run
import proofs.«179960_j30837865185896_1_alg».proof.Proof.KernelValue
import proofs.«179960_j30837865185896_1_alg».proof.Proof.RefValue

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frame.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frame.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the specification's linear layer of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ValueRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1,
    (hagree c).2.2.2.2.1, (hagree c).2.2.2.2.2]
  funext j
  obtain ⟨b, t, o, rfl⟩ : ∃ (b : Fin 8) (t : Fin 1024) (o : Fin 4096), j = ValueIdx.ix3 b t o := ⟨j 0, j 1, j 2, ValueIdx.eq_ix3 j⟩
  exact Cert.ReferenceIdeal.RefValue.out_ref _ _ _ _ _ _ b t o

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
